-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4000x200 : Shape := ⟨2, ![4000, 200]⟩
abbrev S400000 : Shape := ⟨1, ![400000]⟩
abbrev S100000 : Shape := ⟨1, ![100000]⟩
abbrev S128x512 : Shape := ⟨2, ![128, 512]⟩
abbrev S512 : Shape := ⟨1, ![512]⟩
abbrev S512x512 : Shape := ⟨2, ![512, 512]⟩
abbrev S712x500 : Shape := ⟨2, ![712, 500]⟩
abbrev S500 : Shape := ⟨1, ![500]⟩
abbrev S500x100 : Shape := ⟨2, ![500, 100]⟩
abbrev S100 : Shape := ⟨1, ![100]⟩
abbrev S100x2 : Shape := ⟨2, ![100, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4000x200 : S_.BroadcastsInDim S4000x200 (![] : Fin 0 → Fin S4000x200.rank)
  reducesTo_S4000x200_S_d0_1 : S4000x200.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S712x500 : S_.BroadcastsInDim S712x500 (![] : Fin 0 → Fin S712x500.rank)
  reducesTo_S712x500_S_d0_1 : S712x500.ReducesTo [0, 1] S_
  bcast_S_S500 : S_.BroadcastsInDim S500 (![] : Fin 0 → Fin S500.rank)
  reducesTo_S500_S_d0 : S500.ReducesTo [0] S_
  bcast_S_S500x100 : S_.BroadcastsInDim S500x100 (![] : Fin 0 → Fin S500x100.rank)
  reducesTo_S500x100_S_d0_1 : S500x100.ReducesTo [0, 1] S_
  bcast_S_S100 : S_.BroadcastsInDim S100 (![] : Fin 0 → Fin S100.rank)
  reducesTo_S100_S_d0 : S100.ReducesTo [0] S_
  bcast_S_S100x2 : S_.BroadcastsInDim S100x2 (![] : Fin 0 → Fin S100x2.rank)
  reducesTo_S100x2_S_d0_1 : S100x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg14 : FVec F S2 .f32) (main_v48 : IVec S_ 1) (main_v49 : FVec F S100x2 .f32) (main_v50 : FVec F S100x2 .f32) : IVec S_ 1 :=
  let main_v51 : IVec S100x2 1 := cmpf .olt main_v49 main_v50
  let main_c_19 : IVec S_ 1 := constantI S_ 1 1#1
  let main_v52 : IVec S_ 1 := (fun x v => Host.reduce IntOp.andi x v reducesTo_S100x2_S_d0_1 h_S_) main_v51 main_c_19
  let main_v53 : IVec S_ 1 := andi main_v48 main_v52
  let main_v54 : FVec F S2 .f32 := Host.absf main_arg14
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg10 : FVec F S500 .f32) (main_arg11 : FVec F S500x100 .f32) (main_arg12 : FVec F S100 .f32) (main_arg13 : FVec F S100x2 .f32) (main_arg14 : FVec F S2 .f32) (main_v33 : IVec S_ 1) : IVec S_ 1 :=
  let main_v34 : FVec F S500 .f32 := Host.absf main_arg10
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  let main_v39 : FVec F S500x100 .f32 := Host.absf main_arg11
  let main_cst_14 : FVec F S_ .f32 := constant S_ .f32 0x7F800000#32
  let main_v40 : FVec F S500x100 .f32 := broadcastInDim S500x100 ![] bcast_S_S500x100 main_cst_14
  let main_v41 : IVec S500x100 1 := cmpf .olt main_v39 main_v40
  let main_c_15 : IVec S_ 1 := constantI S_ 1 1#1
  let main_v42 : IVec S_ 1 := (fun x v => Host.reduce IntOp.andi x v reducesTo_S500x100_S_d0_1 h_S_) main_v41 main_c_15
  let main_v43 : IVec S_ 1 := andi main_v38 main_v42
  let main_v44 : FVec F S100 .f32 := Host.absf main_arg12
  let main_cst_16 : FVec F S_ .f32 := constant S_ .f32 0x7F800000#32
  let main_v45 : FVec F S100 .f32 := broadcastInDim S100 ![] bcast_S_S100 main_cst_16
  let main_v46 : IVec S100 1 := cmpf .olt main_v44 main_v45
  let main_c_17 : IVec S_ 1 := constantI S_ 1 1#1
  let main_v47 : IVec S_ 1 := (fun x v => Host.reduce IntOp.andi x v reducesTo_S100_S_d0 h_S_) main_v46 main_c_17
  let main_v48 : IVec S_ 1 := andi main_v43 main_v47
  let main_v49 : FVec F S100x2 .f32 := Host.absf main_arg13
  let main_cst_18 : FVec F S_ .f32 := constant S_ .f32 0x7F800000#32
  let main_v50 : FVec F S100x2 .f32 := broadcastInDim S100x2 ![] bcast_S_S100x2 main_cst_18
  fn_part3 (F := F) main_arg14 main_v48 main_v49 main_v50

def fn_part1 {F : FTy → Type} [FloatOps F] (main_arg7 : FVec F S512x512 .f32) (main_arg8 : FVec F S512 .f32) (main_arg9 : FVec F S712x500 .f32) (main_arg10 : FVec F S500 .f32) (main_arg11 : FVec F S500x100 .f32) (main_arg12 : FVec F S100 .f32) (main_arg13 : FVec F S100x2 .f32) (main_arg14 : FVec F S2 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg7
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg8
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S712x500 .f32 := Host.absf main_arg9
  let main_cst_10 : FVec F S_ .f32 := constant S_ .f32 0x7F800000#32
  let main_v30 : FVec F S712x500 .f32 := broadcastInDim S712x500 ![] bcast_S_S712x500 main_cst_10
  let main_v31 : IVec S712x500 1 := cmpf .olt main_v29 main_v30
  let main_c_11 : IVec S_ 1 := constantI S_ 1 1#1
  let main_v32 : IVec S_ 1 := (fun x v => Host.reduce IntOp.andi x v reducesTo_S712x500_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S100000x128 .f32) (main_arg1 : FVec F S4000x200 .f32) (main_arg2 : IVec S400000 32) (main_arg3 : IVec S400000 32) (main_arg4 : IVec S100000 32) (main_arg5 : FVec F S128x512 .f32) (main_arg6 : FVec F S512 .f32) (main_arg7 : FVec F S512x512 .f32) (main_arg8 : FVec F S512 .f32) (main_arg9 : FVec F S712x500 .f32) (main_arg10 : FVec F S500 .f32) (main_arg11 : FVec F S500x100 .f32) (main_arg12 : FVec F S100 .f32) (main_arg13 : FVec F S100x2 .f32) (main_arg14 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4000x200 .f32 := Host.absf main_arg1
  let main_cst_0 : FVec F S_ .f32 := constant S_ .f32 0x7F800000#32
  let main_v5 : FVec F S4000x200 .f32 := broadcastInDim S4000x200 ![] bcast_S_S4000x200 main_cst_0
  let main_v6 : IVec S4000x200 1 := cmpf .olt main_v4 main_v5
  let main_c_1 : IVec S_ 1 := constantI S_ 1 1#1
  let main_v7 : IVec S_ 1 := (fun x v => Host.reduce IntOp.andi x v reducesTo_S4000x200_S_d0_1 h_S_) main_v6 main_c_1
  let main_v8 : IVec S_ 1 := andi main_v3 main_v7
  let main_v9 : FVec F S128x512 .f32 := Host.absf main_arg5
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg6
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg7 main_arg8 main_arg9 main_arg10 main_arg11 main_arg12 main_arg13 main_arg14 main_v13 main_v16
-- ==== Kernel.lean ====
abbrev S100000x128 : Shape := ⟨2, ![100000, 128]⟩
abbrev S4000x200 : Shape := ⟨2, ![4000, 200]⟩
abbrev S400000 : Shape := ⟨1, ![400000]⟩
abbrev S100000 : Shape := ⟨1, ![100000]⟩
abbrev S128x512 : Shape := ⟨2, ![128, 512]⟩
abbrev S512 : Shape := ⟨1, ![512]⟩
abbrev S512x512 : Shape := ⟨2, ![512, 512]⟩
abbrev S712x500 : Shape := ⟨2, ![712, 500]⟩
abbrev S500 : Shape := ⟨1, ![500]⟩
abbrev S500x100 : Shape := ⟨2, ![500, 100]⟩
abbrev S100 : Shape := ⟨1, ![100]⟩
abbrev S100x2 : Shape := ⟨2, ![100, 2]⟩
abbrev S2 : Shape := ⟨1, ![2]⟩
abbrev S100000x512 : Shape := ⟨2, ![100000, 512]⟩
abbrev S2000x128 : Shape := ⟨2, ![2000, 128]⟩
abbrev S2000x512 : Shape := ⟨2, ![2000, 512]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S4000x512 : Shape := ⟨2, ![4000, 512]⟩
abbrev S100000x1 : Shape := ⟨2, ![100000, 1]⟩
abbrev S4000 : Shape := ⟨1, ![4000]⟩
abbrev S4000x1 : Shape := ⟨2, ![4000, 1]⟩
abbrev S4000x712 : Shape := ⟨2, ![4000, 712]⟩
abbrev S1x500 : Shape := ⟨2, ![1, 500]⟩
abbrev S1x100 : Shape := ⟨2, ![1, 100]⟩
abbrev S1x2 : Shape := ⟨2, ![1, 2]⟩
abbrev S4000x2 : Shape := ⟨2, ![4000, 2]⟩
abbrev S4000x500 : Shape := ⟨2, ![4000, 500]⟩
abbrev S4000x100 : Shape := ⟨2, ![4000, 100]⟩

abbrev nBuf : Space → Nat
  | .hbm => 68
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S4000x200, .f32⟩
  | .hbm, ⟨2, _⟩ => ⟨S400000, .i32⟩
  | .hbm, ⟨3, _⟩ => ⟨S400000, .i32⟩
  | .hbm, ⟨4, _⟩ => ⟨S100000, .i32⟩
  | .hbm, ⟨5, _⟩ => ⟨S128x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S712x500, .f32⟩
  | .hbm, ⟨10, _⟩ => ⟨S500, .f32⟩
  | .hbm, ⟨11, _⟩ => ⟨S500x100, .f32⟩
  | .hbm, ⟨12, _⟩ => ⟨S100, .f32⟩
  | .hbm, ⟨13, _⟩ => ⟨S100x2, .f32⟩
  | .hbm, ⟨14, _⟩ => ⟨S2, .f32⟩
  | .hbm, ⟨15, _⟩ => ⟨S100000x512, .f32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x512, .f32⟩
  | .hbm, ⟨25, _⟩ => ⟨S_, .f32⟩
  | .hbm, ⟨26, _⟩ => ⟨S100000x512, .f32⟩
  | .hbm, ⟨27, _⟩ => ⟨S400000x1, .i32⟩
  | .hbm, ⟨28, _⟩ => ⟨S100000x512, .f32⟩
  | .hbm, ⟨29, _⟩ => ⟨S1x512, .f32⟩
  | .hbm, ⟨30, _⟩ => ⟨S100000x512, .f32⟩
  | .hbm, ⟨31, _⟩ => ⟨S100000x512, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x512, .f32⟩
  | .hbm, ⟨41, _⟩ => ⟨S_, .f32⟩
  | .hbm, ⟨42, _⟩ => ⟨S100000x512, .f32⟩
  | .hbm, ⟨43, _⟩ => ⟨S400000x1, .i32⟩
  | .hbm, ⟨44, _⟩ => ⟨S100000x512, .f32⟩
  | .hbm, ⟨45, _⟩ => ⟨S1x512, .f32⟩
  | .hbm, ⟨46, _⟩ => ⟨S100000x512, .f32⟩
  | .hbm, ⟨47, _⟩ => ⟨S_, .f32⟩
  | .hbm, ⟨48, _⟩ => ⟨S4000x512, .f32⟩
  | .hbm, ⟨49, _⟩ => ⟨S100000x1, .i32⟩
  | .hbm, ⟨50, _⟩ => ⟨S4000x512, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S4000, .f32⟩
  | .hbm, ⟨55, _⟩ => ⟨S100000x1, .i32⟩
  | .hbm, ⟨56, _⟩ => ⟨S4000, .f32⟩
  | .hbm, ⟨57, _⟩ => ⟨S_, .f32⟩
  | .hbm, ⟨58, _⟩ => ⟨S4000, .f32⟩
  | .hbm, ⟨59, _⟩ => ⟨S4000, .f32⟩
  | .hbm, ⟨60, _⟩ => ⟨S4000x1, .f32⟩
  | .hbm, ⟨61, _⟩ => ⟨S4000x512, .f32⟩
  | .hbm, ⟨62, _⟩ => ⟨S4000x512, .f32⟩
  | .hbm, ⟨63, _⟩ => ⟨S4000x712, .f32⟩
  | .hbm, ⟨64, _⟩ => ⟨S1x500, .f32⟩
  | .hbm, ⟨65, _⟩ => ⟨S1x100, .f32⟩
  | .hbm, ⟨66, _⟩ => ⟨S1x2, .f32⟩
  | .hbm, ⟨67, _⟩ => ⟨S4000x2, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S1x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S1x512, .f32⟩
  | .local _ .vmem, ⟨18, _⟩ => ⟨S2000x512, .f32⟩
  | .local _ .vmem, ⟨19, _⟩ => ⟨S2000x512, .f32⟩
  | .local _ .vmem, ⟨20, _⟩ => ⟨S4000x712, .f32⟩
  | .local _ .vmem, ⟨21, _⟩ => ⟨S712x500, .f32⟩
  | .local _ .vmem, ⟨22, _⟩ => ⟨S1x500, .f32⟩
  | .local _ .vmem, ⟨23, _⟩ => ⟨S500x100, .f32⟩
  | .local _ .vmem, ⟨24, _⟩ => ⟨S1x100, .f32⟩
  | .local _ .vmem, ⟨25, _⟩ => ⟨S100x2, .f32⟩
  | .local _ .vmem, ⟨26, _⟩ => ⟨S1x2, .f32⟩
  | .local _ .vmem, ⟨27, _⟩ => ⟨S4000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_5 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc4_stg4_0 : Ref sig .tc := ⟨.vmem, 24, rfl⟩
abbrev cc4_stg5_0 : Ref sig .tc := ⟨.vmem, 25, rfl⟩
abbrev cc4_stg6_0 : Ref sig .tc := ⟨.vmem, 26, rfl⟩
abbrev cc4_stg7_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc4_sem4_0 : DmaSem sig := 24
abbrev cc4_sem5_0 : DmaSem sig := 25
abbrev cc4_sem6_0 : DmaSem sig := 26
abbrev cc4_sem7_0 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S4000x712 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S712x500 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x500 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S500x100 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x100 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S100x2 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x2 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S4000x2 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S2000x512_S2000x512_0_0 : ∀ a, (![0, 0] : Fin 2 → Nat) a + S2000x512.size a ≤ S2000x512.size a
  h_S2000x512 : 0 < S2000x512.numel
  bcast_S_S400000 : S_.BroadcastsInDim S400000 (![] : Fin 0 → Fin S400000.rank)
  bcast_S400000_S400000x1_0 : S400000.BroadcastsInDim S400000x1 (![0] : Fin 1 → Fin S400000x1.rank)
  bcast_S_S100000x512 : S_.BroadcastsInDim S100000x512 (![] : Fin 0 → Fin S100000x512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x512_S512x512_0_0 : ∀ a, (![0, 0] : Fin 2 → Nat) a + S512x512.size a ≤ S512x512.size a
  h_S512x512 : 0 < S512x512.numel
  bcast_S_S4000x512 : S_.BroadcastsInDim S4000x512 (![] : Fin 0 → Fin S4000x512.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x512_0_1 : S4000x1.BroadcastsInDim S4000x512 (![0, 1] : Fin 2 → Fin S4000x512.rank)
  concatenates_S4000x512_S4000x200_S4000x712_d1 : Shape.Concatenates [S4000x512, S4000x200] S4000x712 1
  shapeCasts_S500_S1x500 : S500.ShapeCasts S1x500
  shapeCasts_S100_S1x100 : S100.ShapeCasts S1x100
  shapeCasts_S2_S1x2 : S2.ShapeCasts S1x2
  inb_S4000x712_S4000x712_0_0 : ∀ a, (![0, 0] : Fin 2 → Nat) a + S4000x712.size a ≤ S4000x712.size a
  h_S4000x712 : 0 < S4000x712.numel
  shapeCasts_S4000x712_S4000x712 : S4000x712.ShapeCasts S4000x712
  inb_S712x500_S712x500_0_0 : ∀ a, (![0, 0] : Fin 2 → Nat) a + S712x500.size a ≤ S712x500.size a
  h_S712x500 : 0 < S712x500.numel
  inb_S1x500_S1x500_0_0 : ∀ a, (![0, 0] : Fin 2 → Nat) a + S1x500.size a ≤ S1x500.size a
  h_S1x500 : 0 < S1x500.numel
  shapeCasts_S1x500_S1x500 : S1x500.ShapeCasts S1x500
  broadcasts_S1x500_S4000x500 : S1x500.Broadcasts S4000x500
  inb_S500x100_S500x100_0_0 : ∀ a, (![0, 0] : Fin 2 → Nat) a + S500x100.size a ≤ S500x100.size a
  h_S500x100 : 0 < S500x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S4000x100 : S1x100.Broadcasts S4000x100
  inb_S100x2_S100x2_0_0 : ∀ a, (![0, 0] : Fin 2 → Nat) a + S100x2.size a ≤ S100x2.size a
  h_S100x2 : 0 < S100x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  dot_S2000x128_S128x512_S2000x512_1_0_0_1_n_n_wf : DotDims.WF S2000x128 S128x512 S2000x512 [1] [0] [0] [1] [] []
  gather_S100000x512_S400000x1_S400000x512_1_0_n_n_0_1_1512_wf : GatherDims.WF S100000x512 S400000x1 S400000x512 [1] [0] [] [0] [] 1 ![1, 512]
  scatter_S100000x512_S400000x1_S400000x512_1_0_0_1_wf : ScatterDims.WF S100000x512 S400000x1 S400000x512 [1] [0] [0] 1
  dot_S2000x512_S512x512_S2000x512_1_0_0_1_n_n_wf : DotDims.WF S2000x512 S512x512 S2000x512 [1] [0] [0] [1] [] []
  scatter_S4000x512_S100000x1_S100000x512_1_0_0_1_wf : ScatterDims.WF S4000x512 S100000x1 S100000x512 [1] [0] [0] 1
  scatter_S4000_S100000x1_S100000_n_0_0_1_wf : ScatterDims.WF S4000 S100000x1 S100000 [] [0] [0] 1
  dot_S4000x712_S712x500_S4000x500_1_0_0_1_n_n_wf : DotDims.WF S4000x712 S712x500 S4000x500 [1] [0] [0] [1] [] []
  dot_S4000x500_S500x100_S4000x100_1_0_0_1_n_n_wf : DotDims.WF S4000x500 S500x100 S4000x100 [1] [0] [0] [1] [] []
  dot_S4000x100_S100x2_S4000x2_1_0_0_1_n_n_wf : DotDims.WF S4000x100 S100x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S100000x512.size a
  hwx0_2 : ∀ i : grid0.Coords, EltTy.bits .f32 = 32 ∨ (Rect.block (s := S100000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S100000x512.size a
  hwx1_0 : ∀ i : grid1.Coords, EltTy.bits .f32 = 32 ∨ (Rect.block (s := S100000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S100000x512.size a
  hwx1_2 : ∀ i : grid1.Coords, EltTy.bits .f32 = 32 ∨ (Rect.block (s := S100000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S100000x512.size a
  hwx2_0 : ∀ i : grid2.Coords, EltTy.bits .f32 = 32 ∨ (Rect.block (s := S100000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S100000x512.size a
  hwx2_2 : ∀ i : grid2.Coords, EltTy.bits .f32 = 32 ∨ (Rect.block (s := S100000x512) S2000x512.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S100000x512.size a
  hwx3_0 : ∀ i : grid3.Coords, EltTy.bits .f32 = 32 ∨ (Rect.block (s := S100000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x512.size a ≤ S100000x512.size a
  hwx3_2 : ∀ i : grid3.Coords, EltTy.bits .f32 = 32 ∨ (Rect.block (s := S100000x512) S2000x512.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S4000x712.size a ≤ S4000x712.size a
  hwx4_0 : ∀ i : grid4.Coords, EltTy.bits .f32 = 32 ∨ (Rect.block (s := S4000x712) S4000x712.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S712x500.size a ≤ S712x500.size a
  hwx4_1 : ∀ i : grid4.Coords, EltTy.bits .f32 = 32 ∨ (Rect.block (s := S712x500) S712x500.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x500.size a ≤ S1x500.size a
  hwx4_2 : ∀ i : grid4.Coords, EltTy.bits .f32 = 32 ∨ (Rect.block (s := S1x500) S1x500.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S500x100.size a ≤ S500x100.size a
  hwx4_3 : ∀ i : grid4.Coords, EltTy.bits .f32 = 32 ∨ (Rect.block (s := S500x100) S500x100.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x100.size a ≤ S1x100.size a
  hwx4_4 : ∀ i : grid4.Coords, EltTy.bits .f32 = 32 ∨ (Rect.block (s := S1x100) S1x100.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S100x2.size a ≤ S100x2.size a
  hwx4_5 : ∀ i : grid4.Coords, EltTy.bits .f32 = 32 ∨ (Rect.block (s := S100x2) S100x2.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x2.size a ≤ S1x2.size a
  hwx4_6 : ∀ i : grid4.Coords, EltTy.bits .f32 = 32 ∨ (Rect.block (s := S1x2) S1x2.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S4000x2.size a ≤ S4000x2.size a
  hwx4_7 : ∀ i : grid4.Coords, EltTy.bits .f32 = 32 ∨ (Rect.block (s := S4000x2) S4000x2.size (cc4_transform_7 i) (hinb4_7 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S100000x512_S400000x1_S400000x512_1_0_0_1 : ScatterDims S100000x512 S400000x1 S400000x512 where
  updateWindowDims := [1]
  insertedWindowDims := [0]
  scatterDimsToOperandDims := [0]
  indexVectorDim := 1
  wf := scatter_S100000x512_S400000x1_S400000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S4000x512_S100000x1_S100000x512_1_0_0_1 : ScatterDims S4000x512 S100000x1 S100000x512 where
  updateWindowDims := [1]
  insertedWindowDims := [0]
  scatterDimsToOperandDims := [0]
  indexVectorDim := 1
  wf := scatter_S4000x512_S100000x1_S100000x512_1_0_0_1_wf
def scatter_S4000_S100000x1_S100000_n_0_0_1 : ScatterDims S4000 S100000x1 S100000 where
  updateWindowDims := []
  insertedWindowDims := [0]
  scatterDimsToOperandDims := [0]
  indexVectorDim := 1
  wf := scatter_S4000_S100000x1_S100000_n_0_0_1_wf
def dot_S4000x712_S712x500_S4000x500_1_0_0_1_n_n : DotDims S4000x712 S712x500 S4000x500 where
  lhsContracting := [1]
  rhsContracting := [0]
  lhsNonContracting := [0]
  rhsNonContracting := [1]
  lhsBatch := []
  rhsBatch := []
  wf := dot_S4000x712_S712x500_S4000x500_1_0_0_1_n_n_wf
def dot_S4000x500_S500x100_S4000x100_1_0_0_1_n_n : DotDims S4000x500 S500x100 S4000x100 where
  lhsContracting := [1]
  rhsContracting := [0]
  lhsNonContracting := [0]
  rhsNonContracting := [1]
  lhsBatch := []
  rhsBatch := []
  wf := dot_S4000x500_S500x100_S4000x100_1_0_0_1_n_n_wf
def dot_S4000x100_S100x2_S4000x2_1_0_0_1_n_n : DotDims S4000x100 S100x2 S4000x2 where
  lhsContracting := [1]
  rhsContracting := [0]
  lhsNonContracting := [0]
  rhsNonContracting := [1]
  lhsBatch := []
  rhsBatch := []
  wf := dot_S4000x100_S100x2_S4000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v12) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v24) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S2000x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v38) S4000x712.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S712x500.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v39) S1x500.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S500x100.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v40) S1x100.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S100x2.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v41) S1x2.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v42) S4000x2.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x128 : Shape := ⟨2, ![100000, 128]⟩
abbrev S4000x200 : Shape := ⟨2, ![4000, 200]⟩
abbrev S400000 : Shape := ⟨1, ![400000]⟩
abbrev S100000 : Shape := ⟨1, ![100000]⟩
abbrev S128x512 : Shape := ⟨2, ![128, 512]⟩
abbrev S512 : Shape := ⟨1, ![512]⟩
abbrev S512x512 : Shape := ⟨2, ![512, 512]⟩
abbrev S712x500 : Shape := ⟨2, ![712, 500]⟩
abbrev S500 : Shape := ⟨1, ![500]⟩
abbrev S500x100 : Shape := ⟨2, ![500, 100]⟩
abbrev S100 : Shape := ⟨1, ![100]⟩
abbrev S100x2 : Shape := ⟨2, ![100, 2]⟩
abbrev S2 : Shape := ⟨1, ![2]⟩
abbrev S100000x512 : Shape := ⟨2, ![100000, 512]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S4000x512 : Shape := ⟨2, ![4000, 512]⟩
abbrev S100000x1 : Shape := ⟨2, ![100000, 1]⟩
abbrev S4000 : Shape := ⟨1, ![4000]⟩
abbrev S4000x1 : Shape := ⟨2, ![4000, 1]⟩
abbrev S4000x712 : Shape := ⟨2, ![4000, 712]⟩
abbrev S4000x500 : Shape := ⟨2, ![4000, 500]⟩
abbrev S1x500 : Shape := ⟨2, ![1, 500]⟩
abbrev S4000x100 : Shape := ⟨2, ![4000, 100]⟩
abbrev S1x100 : Shape := ⟨2, ![1, 100]⟩
abbrev S4000x2 : Shape := ⟨2, ![4000, 2]⟩
abbrev S1x2 : Shape := ⟨2, ![1, 2]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4000x200, .f32⟩
  | .hbm, ⟨2, _⟩ => ⟨S400000, .i32⟩
  | .hbm, ⟨3, _⟩ => ⟨S400000, .i32⟩
  | .hbm, ⟨4, _⟩ => ⟨S100000, .i32⟩
  | .hbm, ⟨5, _⟩ => ⟨S128x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S712x500, .f32⟩
  | .hbm, ⟨10, _⟩ => ⟨S500, .f32⟩
  | .hbm, ⟨11, _⟩ => ⟨S500x100, .f32⟩
  | .hbm, ⟨12, _⟩ => ⟨S100, .f32⟩
  | .hbm, ⟨13, _⟩ => ⟨S100x2, .f32⟩
  | .hbm, ⟨14, _⟩ => ⟨S2, .f32⟩
  | .hbm, ⟨15, _⟩ => ⟨S100000x512, .f32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x512, .f32⟩
  | .hbm, ⟨25, _⟩ => ⟨S_, .f32⟩
  | .hbm, ⟨26, _⟩ => ⟨S100000x512, .f32⟩
  | .hbm, ⟨27, _⟩ => ⟨S400000x1, .i32⟩
  | .hbm, ⟨28, _⟩ => ⟨S100000x512, .f32⟩
  | .hbm, ⟨29, _⟩ => ⟨S1x512, .f32⟩
  | .hbm, ⟨30, _⟩ => ⟨S100000x512, .f32⟩
  | .hbm, ⟨31, _⟩ => ⟨S100000x512, .f32⟩
  | .hbm, ⟨32, _⟩ => ⟨S_, .f32⟩
  | .hbm, ⟨33, _⟩ => ⟨S100000x512, .f32⟩
  | .hbm, ⟨34, _⟩ => ⟨S100000x512, .f32⟩
  | .hbm, ⟨35, _⟩ => ⟨S100000x512, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S400000x512, .f32⟩
  | .hbm, ⟨45, _⟩ => ⟨S_, .f32⟩
  | .hbm, ⟨46, _⟩ => ⟨S100000x512, .f32⟩
  | .hbm, ⟨47, _⟩ => ⟨S400000x1, .i32⟩
  | .hbm, ⟨48, _⟩ => ⟨S100000x512, .f32⟩
  | .hbm, ⟨49, _⟩ => ⟨S1x512, .f32⟩
  | .hbm, ⟨50, _⟩ => ⟨S100000x512, .f32⟩
  | .hbm, ⟨51, _⟩ => ⟨S100000x512, .f32⟩
  | .hbm, ⟨52, _⟩ => ⟨S_, .f32⟩
  | .hbm, ⟨53, _⟩ => ⟨S100000x512, .f32⟩
  | .hbm, ⟨54, _⟩ => ⟨S100000x512, .f32⟩
  | .hbm, ⟨55, _⟩ => ⟨S_, .f32⟩
  | .hbm, ⟨56, _⟩ => ⟨S4000x512, .f32⟩
  | .hbm, ⟨57, _⟩ => ⟨S100000x1, .i32⟩
  | .hbm, ⟨58, _⟩ => ⟨S4000x512, .f32⟩
  | .hbm, ⟨59, _⟩ => ⟨S_, .f32⟩
  | .hbm, ⟨60, _⟩ => ⟨S100000, .f32⟩
  | .hbm, ⟨61, _⟩ => ⟨S_, .f32⟩
  | .hbm, ⟨62, _⟩ => ⟨S4000, .f32⟩
  | .hbm, ⟨63, _⟩ => ⟨S100000x1, .i32⟩
  | .hbm, ⟨64, _⟩ => ⟨S4000, .f32⟩
  | .hbm, ⟨65, _⟩ => ⟨S_, .f32⟩
  | .hbm, ⟨66, _⟩ => ⟨S4000, .f32⟩
  | .hbm, ⟨67, _⟩ => ⟨S4000, .f32⟩
  | .hbm, ⟨68, _⟩ => ⟨S4000x1, .f32⟩
  | .hbm, ⟨69, _⟩ => ⟨S4000x512, .f32⟩
  | .hbm, ⟨70, _⟩ => ⟨S4000x512, .f32⟩
  | .hbm, ⟨71, _⟩ => ⟨S4000x712, .f32⟩
  | .hbm, ⟨72, _⟩ => ⟨S4000x500, .f32⟩
  | .hbm, ⟨73, _⟩ => ⟨S1x500, .f32⟩
  | .hbm, ⟨74, _⟩ => ⟨S4000x500, .f32⟩
  | .hbm, ⟨75, _⟩ => ⟨S4000x500, .f32⟩
  | .hbm, ⟨76, _⟩ => ⟨S_, .f32⟩
  | .hbm, ⟨77, _⟩ => ⟨S4000x500, .f32⟩
  | .hbm, ⟨78, _⟩ => ⟨S4000x500, .f32⟩
  | .hbm, ⟨79, _⟩ => ⟨S4000x100, .f32⟩
  | .hbm, ⟨80, _⟩ => ⟨S1x100, .f32⟩
  | .hbm, ⟨81, _⟩ => ⟨S4000x100, .f32⟩
  | .hbm, ⟨82, _⟩ => ⟨S4000x100, .f32⟩
  | .hbm, ⟨83, _⟩ => ⟨S_, .f32⟩
  | .hbm, ⟨84, _⟩ => ⟨S4000x100, .f32⟩
  | .hbm, ⟨85, _⟩ => ⟨S4000x100, .f32⟩
  | .hbm, ⟨86, _⟩ => ⟨S4000x2, .f32⟩
  | .hbm, ⟨87, _⟩ => ⟨S1x2, .f32⟩
  | .hbm, ⟨88, _⟩ => ⟨S4000x2, .f32⟩
  | .hbm, ⟨89, _⟩ => ⟨S4000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call0_cst : Ref sig .tc := ⟨.hbm, 32, rfl⟩
abbrev main_call0_v0 : Ref sig .tc := ⟨.hbm, 33, rfl⟩
abbrev main_v14 : Ref sig .tc := ⟨.hbm, 34, rfl⟩
abbrev main_v15 : Ref sig .tc := ⟨.hbm, 35, rfl⟩
abbrev main_c_1 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_cst : Ref sig .tc := ⟨.hbm, 52, rfl⟩
abbrev main_call1_v0 : Ref sig .tc := ⟨.hbm, 53, rfl⟩
abbrev main_v29 : Ref sig .tc := ⟨.hbm, 54, rfl⟩
abbrev main_cst_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call2_cst : Ref sig .tc := ⟨.hbm, 76, rfl⟩
abbrev main_call2_v0 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call3_cst : Ref sig .tc := ⟨.hbm, 83, rfl⟩
abbrev main_call3_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S100000x512 : S_.BroadcastsInDim S100000x512 (![] : Fin 0 → Fin S100000x512.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S4000x512 : S_.BroadcastsInDim S4000x512 (![] : Fin 0 → Fin S4000x512.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x512_0_1 : S4000x1.BroadcastsInDim S4000x512 (![0, 1] : Fin 2 → Fin S4000x512.rank)
  concatenates_S4000x512_S4000x200_S4000x712_d1 : Shape.Concatenates [S4000x512, S4000x200] S4000x712 1
  bcast_S500_S1x500_1 : S500.BroadcastsInDim S1x500 (![1] : Fin 1 → Fin S1x500.rank)
  bcast_S1x500_S4000x500_0_1 : S1x500.BroadcastsInDim S4000x500 (![0, 1] : Fin 2 → Fin S4000x500.rank)
  bcast_S_S4000x500 : S_.BroadcastsInDim S4000x500 (![] : Fin 0 → Fin S4000x500.rank)
  bcast_S100_S1x100_1 : S100.BroadcastsInDim S1x100 (![1] : Fin 1 → Fin S1x100.rank)
  bcast_S1x100_S4000x100_0_1 : S1x100.BroadcastsInDim S4000x100 (![0, 1] : Fin 2 → Fin S4000x100.rank)
  bcast_S_S4000x100 : S_.BroadcastsInDim S4000x100 (![] : Fin 0 → Fin S4000x100.rank)
  bcast_S2_S1x2_1 : S2.BroadcastsInDim S1x2 (![1] : Fin 1 → Fin S1x2.rank)
  bcast_S1x2_S4000x2_0_1 : S1x2.BroadcastsInDim S4000x2 (![0, 1] : Fin 2 → Fin S4000x2.rank)
  dot_S100000x128_S128x512_S100000x512_1_0_0_1_n_n_wf : DotDims.WF S100000x128 S128x512 S100000x512 [1] [0] [0] [1] [] []
  gather_S100000x512_S400000x1_S400000x512_1_0_n_n_0_1_1512_wf : GatherDims.WF S100000x512 S400000x1 S400000x512 [1] [0] [] [0] [] 1 ![1, 512]
  scatter_S100000x512_S400000x1_S400000x512_1_0_0_1_wf : ScatterDims.WF S100000x512 S400000x1 S400000x512 [1] [0] [0] 1
  dot_S100000x512_S512x512_S100000x512_1_0_0_1_n_n_wf : DotDims.WF S100000x512 S512x512 S100000x512 [1] [0] [0] [1] [] []
  scatter_S4000x512_S100000x1_S100000x512_1_0_0_1_wf : ScatterDims.WF S4000x512 S100000x1 S100000x512 [1] [0] [0] 1
  scatter_S4000_S100000x1_S100000_n_0_0_1_wf : ScatterDims.WF S4000 S100000x1 S100000 [] [0] [0] 1
  dot_S4000x712_S712x500_S4000x500_1_0_0_1_n_n_wf : DotDims.WF S4000x712 S712x500 S4000x500 [1] [0] [0] [1] [] []
  dot_S4000x500_S500x100_S4000x100_1_0_0_1_n_n_wf : DotDims.WF S4000x500 S500x100 S4000x100 [1] [0] [0] [1] [] []
  dot_S4000x100_S100x2_S4000x2_1_0_0_1_n_n_wf : DotDims.WF S4000x100 S100x2 S4000x2 [1] [0] [0] [1] [] []

variable [Facts₀]

def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def gather_S100000x512_S400000x1_S400000x512_1_0_n_n_0_1_1512 : GatherDims S100000x512 S400000x1 S400000x512 where
  offsetDims := [1]
  collapsedSliceDims := [0]
  operandBatchingDims := []
  startIndicesBatchingDims := []
  startIndexMap := [0]
  indexVectorDim := 1
  sliceSizes := ![1, 512]
  wf := gather_S100000x512_S400000x1_S400000x512_1_0_n_n_0_1_1512_wf
def scatter_S100000x512_S400000x1_S400000x512_1_0_0_1 : ScatterDims S100000x512 S400000x1 S400000x512 where
  updateWindowDims := [1]
  insertedWindowDims := [0]
  scatterDimsToOperandDims := [0]
  indexVectorDim := 1
  wf := scatter_S100000x512_S400000x1_S400000x512_1_0_0_1_wf
def dot_S100000x512_S512x512_S100000x512_1_0_0_1_n_n : DotDims S100000x512 S512x512 S100000x512 where
  lhsContracting := [1]
  rhsContracting := [0]
  lhsNonContracting := [0]
  rhsNonContracting := [1]
  lhsBatch := []
  rhsBatch := []
  wf := dot_S100000x512_S512x512_S100000x512_1_0_0_1_n_n_wf
def scatter_S4000x512_S100000x1_S100000x512_1_0_0_1 : ScatterDims S4000x512 S100000x1 S100000x512 where
  updateWindowDims := [1]
  insertedWindowDims := [0]
  scatterDimsToOperandDims := [0]
  indexVectorDim := 1
  wf := scatter_S4000x512_S100000x1_S100000x512_1_0_0_1_wf
def scatter_S4000_S100000x1_S100000_n_0_0_1 : ScatterDims S4000 S100000x1 S100000 where
  updateWindowDims := []
  insertedWindowDims := [0]
  scatterDimsToOperandDims := [0]
  indexVectorDim := 1
  wf := scatter_S4000_S100000x1_S100000_n_0_0_1_wf
def dot_S4000x712_S712x500_S4000x500_1_0_0_1_n_n : DotDims S4000x712 S712x500 S4000x500 where
  lhsContracting := [1]
  rhsContracting := [0]
  lhsNonContracting := [0]
  rhsNonContracting := [1]
  lhsBatch := []
  rhsBatch := []
  wf := dot_S4000x712_S712x500_S4000x500_1_0_0_1_n_n_wf
def dot_S4000x500_S500x100_S4000x100_1_0_0_1_n_n : DotDims S4000x500 S500x100 S4000x100 where
  lhsContracting := [1]
  rhsContracting := [0]
  lhsNonContracting := [0]
  rhsNonContracting := [1]
  lhsBatch := []
  rhsBatch := []
  wf := dot_S4000x500_S500x100_S4000x100_1_0_0_1_n_n_wf
def dot_S4000x100_S100x2_S4000x2_1_0_0_1_n_n : DotDims S4000x100 S100x2 S4000x2 where
  lhsContracting := [1]
  rhsContracting := [0]
  lhsNonContracting := [0]
  rhsNonContracting := [1]
  lhsBatch := []
  rhsBatch := []
  wf := dot_S4000x100_S100x2_S4000x2_1_0_0_1_n_n_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Product0.lean ====
/-
  The first matrix product, read off the pipeline. The grid's point t computes rows 2000·t … 2000·t + 1999 of the
  product of the node features with the first weight matrix: the block of features it loads is exactly those rows,
  the weight block is the whole matrix, and the vector unit's product into a zero accumulator is, at every entry,
  the sum over the shared axis — which is also what the host's product of the whole arrays is at that entry.
  The fifty row blocks tile the result, so the array the region leaves is the host's product of the two arrays the
  region found.
-/
import proofs.«139547_j50208167690314_1_alg».proof.Proof.Gen.KernelIdeal.Frame
import proofs.«139547_j50208167690314_1_alg».proof.Proof.Gen.ReferenceIdeal
import proofs.«139547_j50208167690314_1_alg».proof.Proof.LibDot
import Idealize.ShloMosaic.Lib.Pipeline.Value
import Idealize.ShloMosaic.Lib.ValueIdx

set_option maxRecDepth 16384

noncomputable section

open scoped BigOperators

namespace Cert.KernelIdeal.Product0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The host's product of the whole arrays (the reference's first operation). -/
def whole (x : FVec Ideal S100000x128 .f32) (w : FVec Ideal S128x512 .f32) : FVec Ideal S100000x512 .f32 :=
  Host.dotGeneral (F := Ideal) Cert.ReferenceIdeal.dot_S100000x128_S128x512_S100000x512_1_0_0_1_n_n none x w

theorem zero_offsets : (![0, 0] : Fin 2 → Nat) = fun _ => 0 := funext fun a => by fin_cases a <;> rfl

/-- Where the blocks sit: point t's feature block and result block are row block t, column block 0; the weight
    block is the whole matrix. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product at an entry of the block: the sum over the shared axis of the loaded blocks' entries. -/
theorem body_at (x0 : Vec Ideal S2000x128 .f32) (x1 : Vec Ideal S128x512 .f32) (p : Fin 2000) (q : Fin 512) :
    k0_pay1 (F := Ideal) x0 x1 (ix2 p q) = ∑ k : Fin 128, x0 (ix2 p k) * x1 (ix2 k q) := by
  unfold k0_pay1
  exact Cert.LibDot.matmul_zero_at dot_S2000x128_S128x512_S2000x512_1_0_0_1_n_n rfl rfl rfl rfl rfl rfl none _ _ p q

/-- The host's product at an entry. -/
theorem whole_at (x : FVec Ideal S100000x128 .f32) (w : FVec Ideal S128x512 .f32) (r : Fin 100000) (q : Fin 512) :
    whole x w (ix2 r q) = ∑ k : Fin 128, x (ix2 r k) * w (ix2 k q) := by
  unfold whole
  exact Cert.LibDot.dotGeneral_at Cert.ReferenceIdeal.dot_S100000x128_S128x512_S100000x512_1_0_0_1_n_n rfl rfl rfl rfl rfl rfl none _ x w r q

/-- One entry of a row block against the whole product: if the loaded feature block's row p is row r of the feature
    array and the loaded weight block is the weight array (on the column read), the block's entry (p, q) is the whole
    product's entry (r, q). -/
theorem entry_eq (x : FVec Ideal S100000x128 .f32) (w : FVec Ideal S128x512 .f32)
    (x0 : Vec Ideal S2000x128 .f32) (x1 : Vec Ideal S128x512 .f32) (r : Fin 100000) (p : Fin 2000) (q : Fin 512)
    (h0 : ∀ k : Fin 128, x0 (ix2 p k) = x (ix2 r k)) (h1 : ∀ k : Fin 128, x1 (ix2 k q) = w (ix2 k q)) :
    k0_pay1 (F := Ideal) x0 x1 (ix2 p q) = whole x w (ix2 r q) := by
  rw [body_at, whole_at]
  exact Finset.sum_congr rfl fun k _ => by rw [h0 k, h1 k]

/-- What point t writes back is row block t of the whole product of the arrays the region found. -/
theorem flushed_eq (c : Dev nD) (t : Fin cfg0.N) :
    (dat0 V c).flushed 2 t = ((cfg0.win 2).blk t).view.read (Elt Ideal) (whole (V c main_arg0) (V c main_arg5)) := by
  show (cfg0.win 2).cut (grid0.coords t) ((dat0 V c).after 2 t) = _
  rw [after0_2]
  unfold out0_2
  rw [View.canon_unit_zero zero_offsets]
  simp only [View.ld_unit_zero (S := S2000x128) zero_offsets, View.ld_unit_zero (S := S128x512) zero_offsets]
  funext j
  obtain ⟨p, q, rfl⟩ : ∃ (p : Fin 2000) (q : Fin 512), j = ix2 p q := ⟨j 0, j 1, eq_ix2 j⟩
  obtain ⟨e00, e01, e10, e11, e20, e21⟩ := block_indices t
  have ht : t.val < 50 := lt_of_lt_of_eq t.isLt N_0
  have hr : t.val * 2000 + p.val < 100000 := by have := p.isLt; omega
  show k0_pay1 (F := Ideal) (iblk0 V c 0 t) (iblk0 V c 1 t) (ix2 p q)
    = whole (V c main_arg0) (V c main_arg5) (((cfg0.win 2).blk t).view.emb (ix2 p q))
  have hemb : ((cfg0.win 2).blk t).view.emb (ix2 p q) = ix2 ⟨t.val * 2000 + p.val, hr⟩ q := by
    funext a; apply Fin.ext
    match a with
    | ⟨0, _⟩ => show win0_2.index t (0 : Fin 2) * 2000 + 1 * p.val = t.val * 2000 + p.val; omega
    | ⟨1, _⟩ => show win0_2.index t (1 : Fin 2) * 512 + 1 * q.val = q.val; omega
  rw [hemb]
  refine entry_eq (V c main_arg0) (V c main_arg5) (iblk0 V c 0 t) (iblk0 V c 1 t) ⟨_, hr⟩ p q (fun k => ?_) (fun k => ?_)
  · show V c main_arg0 (((cfg0.win 0).blk t).view.emb (ix2 p k)) = V c main_arg0 (ix2 ⟨_, hr⟩ k)
    refine congrArg (V c main_arg0) ?_
    funext a; apply Fin.ext
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_arg5 (((cfg0.win 1).blk t).view.emb (ix2 k q)) = V c main_arg5 (ix2 k q)
    refine congrArg (V c main_arg5) ?_
    funext a; apply Fin.ext
    match a with
    | ⟨0, _⟩ => show win0_1.index t (0 : Fin 2) * 128 + 1 * k.val = k.val; omega
    | ⟨1, _⟩ => show win0_1.index t (1 : Fin 2) * 512 + 1 * q.val = q.val; omega

/-- An index of the result array lies in point t's block iff its row is in row block t (the columns are whole). -/
theorem mem_block (t : Fin cfg0.N) (i : S100000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v0).slice (win0_2.rect t)).set ↔ _
  rw [View.set_slice_whole, Rect.mem_set_unit]
  exact Iff.rfl

/-- Every entry of the result lies in the row block of its row divided by 2000. -/
theorem covered (i : S100000x512.Idx) :
    ∃ t : Fin cfg0.N, (cfg0.win 2).flush t = true ∧ i ∈ ((cfg0.win 2).blk t).view.set := by
  have hi0 : (i 0).val < 100000 := (i 0).isLt
  have hi1 : (i 1).val < 512 := (i 1).isLt
  have hN : cfg0.N = 50 := N_0
  let t : Fin cfg0.N := ⟨(i 0).val / 2000, by rw [hN]; omega⟩
  obtain ⟨e00, e01, e10, e11, e20, e21⟩ := block_indices t
  have e20' : win0_2.index t (0 : Fin 2) = (i 0).val / 2000 := e20
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- The array the first region leaves: the host's product of the feature and weight arrays it found. -/
theorem result (c : Dev nD) :
    (dat0 V c).arrAt 2 cfg0.N = whole (V c main_arg0) (V c main_arg5) :=
  (dat0 V c).arrAt_eq_of_cover 2 (whole (V c main_arg0) (V c main_arg5)) (fun t _ => flushed_eq V c t) covered

end Cert.KernelIdeal.Product0

end
-- ==== Proof.Product2.lean ====
/-
  The second matrix product, read off the pipeline. Point t computes rows 2000·t … 2000·t + 1999 of the product of
  the first layer's activations with the second weight matrix: the activation block it loads is exactly those rows
  (recast to its own shape, which changes nothing), the weight block is the whole matrix, and the vector unit's
  product into a zero accumulator is, at every entry, the sum over the shared axis — which is what the host's
  product of the whole arrays is at that entry. The fifty row blocks tile the result.
-/
import proofs.«139547_j50208167690314_1_alg».proof.Proof.Gen.KernelIdeal.Frame
import proofs.«139547_j50208167690314_1_alg».proof.Proof.Gen.ReferenceIdeal
import proofs.«139547_j50208167690314_1_alg».proof.Proof.LibDot
import Idealize.ShloMosaic.Lib.Pipeline.Value
import Idealize.ShloMosaic.Lib.ValueIdx

set_option maxRecDepth 16384

noncomputable section

open scoped BigOperators

namespace Cert.KernelIdeal.Product2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The host's product of the whole arrays (the reference's second product). -/
def whole (x : FVec Ideal S100000x512 .f32) (w : FVec Ideal S512x512 .f32) : FVec Ideal S100000x512 .f32 :=
  Host.dotGeneral (F := Ideal) Cert.ReferenceIdeal.dot_S100000x512_S512x512_S100000x512_1_0_0_1_n_n none x w

theorem zero_offsets : (![0, 0] : Fin 2 → Nat) = fun _ => 0 := funext fun a => by fin_cases a <;> rfl

/-- Where the blocks sit: point t's activation block and result block are row block t, column block 0; the weight
    block is the whole matrix. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's product at an entry of the block: the sum over the shared axis of the loaded blocks' entries. -/
theorem body_at (x0 : Vec Ideal S2000x512 .f32) (x1 : Vec Ideal S512x512 .f32) (p : Fin 2000) (q : Fin 512) :
    k2_pay1 (F := Ideal) x0 x1 (ix2 p q) = ∑ k : Fin 512, x0 (ix2 p k) * x1 (ix2 k q) := by
  unfold k2_pay1
  rw [shapeCast_self]
  exact Cert.LibDot.matmul_zero_at dot_S2000x512_S512x512_S2000x512_1_0_0_1_n_n rfl rfl rfl rfl rfl rfl none _ _ p q

/-- The host's product at an entry. -/
theorem whole_at (x : FVec Ideal S100000x512 .f32) (w : FVec Ideal S512x512 .f32) (r : Fin 100000) (q : Fin 512) :
    whole x w (ix2 r q) = ∑ k : Fin 512, x (ix2 r k) * w (ix2 k q) := by
  unfold whole
  exact Cert.LibDot.dotGeneral_at Cert.ReferenceIdeal.dot_S100000x512_S512x512_S100000x512_1_0_0_1_n_n rfl rfl rfl rfl rfl rfl none _ x w r q

/-- One entry of a row block against the whole product: if the loaded activation block's row p is row r of the activation
    array and the loaded weight block is the weight array (on the column read), the block's entry (p, q) is the whole
    product's entry (r, q). -/
theorem entry_eq (x : FVec Ideal S100000x512 .f32) (w : FVec Ideal S512x512 .f32)
    (x0 : Vec Ideal S2000x512 .f32) (x1 : Vec Ideal S512x512 .f32) (r : Fin 100000) (p : Fin 2000) (q : Fin 512)
    (h0 : ∀ k : Fin 512, x0 (ix2 p k) = x (ix2 r k)) (h1 : ∀ k : Fin 512, x1 (ix2 k q) = w (ix2 k q)) :
    k2_pay1 (F := Ideal) x0 x1 (ix2 p q) = whole x w (ix2 r q) := by
  rw [body_at, whole_at]
  exact Finset.sum_congr rfl fun k _ => by rw [h0 k, h1 k]

/-- What point t writes back is row block t of the whole product of the arrays the region found. -/
theorem flushed_eq (c : Dev nD) (t : Fin cfg2.N) :
    (dat2 V c).flushed 2 t = ((cfg2.win 2).blk t).view.read (Elt Ideal) (whole (V c main_v12) (V c main_arg7)) := by
  show (cfg2.win 2).cut (grid2.coords t) ((dat2 V c).after 2 t) = _
  rw [after2_2]
  unfold out2_2
  rw [View.canon_unit_zero zero_offsets]
  simp only [View.ld_unit_zero (S := S2000x512) zero_offsets, View.ld_unit_zero (S := S512x512) zero_offsets]
  funext j
  obtain ⟨p, q, rfl⟩ : ∃ (p : Fin 2000) (q : Fin 512), j = ix2 p q := ⟨j 0, j 1, eq_ix2 j⟩
  obtain ⟨e00, e01, e10, e11, e20, e21⟩ := block_indices t
  have ht : t.val < 50 := lt_of_lt_of_eq t.isLt N_2
  have hr : t.val * 2000 + p.val < 100000 := by have := p.isLt; omega
  show k2_pay1 (F := Ideal) (iblk2 V c 0 t) (iblk2 V c 1 t) (ix2 p q)
    = whole (V c main_v12) (V c main_arg7) (((cfg2.win 2).blk t).view.emb (ix2 p q))
  have hemb : ((cfg2.win 2).blk t).view.emb (ix2 p q) = ix2 ⟨t.val * 2000 + p.val, hr⟩ q := by
    funext a; apply Fin.ext
    match a with
    | ⟨0, _⟩ => show win2_2.index t (0 : Fin 2) * 2000 + 1 * p.val = t.val * 2000 + p.val; omega
    | ⟨1, _⟩ => show win2_2.index t (1 : Fin 2) * 512 + 1 * q.val = q.val; omega
  rw [hemb]
  refine entry_eq (V c main_v12) (V c main_arg7) (iblk2 V c 0 t) (iblk2 V c 1 t) ⟨_, hr⟩ p q (fun k => ?_) (fun k => ?_)
  · show V c main_v12 (((cfg2.win 0).blk t).view.emb (ix2 p k)) = V c main_v12 (ix2 ⟨_, hr⟩ k)
    refine congrArg (V c main_v12) ?_
    funext a; apply Fin.ext
    match a with
    | ⟨0, _⟩ => show win2_0.index t (0 : Fin 2) * 2000 + 1 * p.val = t.val * 2000 + p.val; omega
    | ⟨1, _⟩ => show win2_0.index t (1 : Fin 2) * 512 + 1 * k.val = k.val; omega
  · show V c main_arg7 (((cfg2.win 1).blk t).view.emb (ix2 k q)) = V c main_arg7 (ix2 k q)
    refine congrArg (V c main_arg7) ?_
    funext a; apply Fin.ext
    match a with
    | ⟨0, _⟩ => show win2_1.index t (0 : Fin 2) * 512 + 1 * k.val = k.val; omega
    | ⟨1, _⟩ => show win2_1.index t (1 : Fin 2) * 512 + 1 * q.val = q.val; omega

/-- An index of the result array lies in point t's block iff its row is in row block t (the columns are whole). -/
theorem mem_block (t : Fin cfg2.N) (i : S100000x512.Idx) :
    i ∈ ((cfg2.win 2).blk t).view.set ↔ ∀ a : Fin 2, win2_2.index t a * S2000x512.size a ≤ (i a).val ∧ (i a).val < win2_2.index t a * S2000x512.size a + S2000x512.size a := by
  show i ∈ ((View.whole main_v13).slice (win2_2.rect t)).set ↔ _
  rw [View.set_slice_whole, Rect.mem_set_unit]
  exact Iff.rfl

/-- Every entry of the result lies in the row block of its row divided by 2000. -/
theorem covered (i : S100000x512.Idx) :
    ∃ t : Fin cfg2.N, (cfg2.win 2).flush t = true ∧ i ∈ ((cfg2.win 2).blk t).view.set := by
  have hi0 : (i 0).val < 100000 := (i 0).isLt
  have hi1 : (i 1).val < 512 := (i 1).isLt
  have hN : cfg2.N = 50 := N_2
  let t : Fin cfg2.N := ⟨(i 0).val / 2000, by rw [hN]; omega⟩
  obtain ⟨e00, e01, e10, e11, e20, e21⟩ := block_indices t
  have e20' : win2_2.index t (0 : Fin 2) = (i 0).val / 2000 := e20
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 512 ≤ (i 1).val ∧ (i 1).val < win2_2.index t (1 : Fin 2) * 512 + 512; omega

/-- The array the third region leaves: the host's product of the activation and weight arrays it found. -/
theorem result (c : Dev nD) :
    (dat2 V c).arrAt 2 cfg2.N = whole (V c main_v12) (V c main_arg7) :=
  (dat2 V c).arrAt_eq_of_cover 2 (whole (V c main_v12) (V c main_arg7)) (fun t _ => flushed_eq V c t) covered

end Cert.KernelIdeal.Product2

end
-- ==== Proof.LibRowBcast.lean ====
/-
  Two host broadcasts read at an index: a one-row matrix spread over many rows reads, at (p, c), the row's entry c;
  a scalar spread over any shape reads the scalar.
-/
import Idealize.ShloMosaic.Lib.Pipeline.Value
import Idealize.ShloMosaic.Lib.ValueIdx

namespace Cert.LibRowBcast

open Idealize.ShloMosaic Idealize.ShloMosaic.ValueIdx

variable {α : Type}

/-- A `[1, b]` array spread over `a` rows by `broadcast_in_dim` along both axes reads, at `(p, c)`, the one row at `c`. -/
theorem row_spread_apply {a b : ℕ} (v : (⟨2, ![1, b]⟩ : Shape).Idx → α)
    (h : (⟨2, ![1, b]⟩ : Shape).BroadcastsInDim (⟨2, ![a, b]⟩ : Shape) ![0, 1]) (p : Fin a) (c : Fin b) :
    broadcastInDim (⟨2, ![a, b]⟩ : Shape) ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A scalar spread over any shape by `broadcast_in_dim` reads, at every index, the scalar. -/
theorem scalar_spread_apply {s : Shape} (x : (⟨0, ![]⟩ : Shape).Idx → α)
    (h : (⟨0, ![]⟩ : Shape).BroadcastsInDim s ![]) (i : s.Idx) :
    broadcastInDim s ![] h x i = x ix0 :=
  broadcastInDim_apply _ h x i ix0 fun ax => ax.elim0

end Cert.LibRowBcast
-- ==== Proof.Relu1.lean ====
/-
  The first layer's bias and rectifier, read off the pipeline. Point t adds the bias row to each of rows
  2000·t … 2000·t + 1999 of the aggregated messages and takes the maximum with zero: the block it loads is exactly
  those rows, the bias block is the whole one-row array, and the body is pointwise. Entry by entry that is the
  reference's host chain on the whole arrays — the bias row spread over all rows, added, and the maximum with the zero
  array. The fifty row blocks tile the result.
-/
import proofs.«139547_j50208167690314_1_alg».proof.Proof.Gen.KernelIdeal.Frame
import proofs.«139547_j50208167690314_1_alg».proof.Proof.Gen.ReferenceIdeal
import proofs.«139547_j50208167690314_1_alg».proof.Proof.LibRowBcast
import Idealize.ShloMosaic.Lib.Pipeline.Value
import Idealize.ShloMosaic.Lib.ValueIdx
import Idealize.ShloMosaic.Lib.ValueLayout

set_option maxRecDepth 16384

noncomputable section

namespace Cert.KernelIdeal.Relu1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The reference's bias and rectifier on whole arrays: the bias row spread over the rows, added, then the maximum
    with the zero array. -/
def whole (x : FVec Ideal S100000x512 .f32) (b : FVec Ideal S1x512 .f32) : FVec Ideal S100000x512 .f32 :=
  maximumf (addf x (broadcastInDim Cert.ReferenceIdeal.S100000x512 ![0, 1] Cert.ReferenceIdeal.Facts₀.bcast_S1x512_S100000x512_0_1 b))
    (broadcastInDim Cert.ReferenceIdeal.S100000x512 ![] Cert.ReferenceIdeal.Facts₀.bcast_S_S100000x512 (constant (F := Ideal) Cert.ReferenceIdeal.S_ .f32 0x00000000#32))

theorem zero_offsets : (![0, 0] : Fin 2 → Nat) = fun _ => 0 := funext fun a => by fin_cases a <;> rfl

/-- Where the blocks sit: point t's input block and result block are row block t; the bias block is the whole row. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body at an entry of the block: the entry plus the bias at its column, against zero. -/
theorem body_at (x0 : FVec Ideal S2000x512 .f32) (x1 : FVec Ideal S1x512 .f32) (p : Fin 2000) (q : Fin 512) :
    k1_pay1 (F := Ideal) x0 x1 (ix2 p q) = max (x0 (ix2 p q) + x1 (ix2 (0 : Fin 1) q)) (Ideal.ofBits .f32 0x00000000#32) := by
  unfold k1_pay1
  rw [shapeCast_self, shapeCast_self, maximumf_apply, addf_apply, broadcastTo_1b_ab_apply]
  rfl

/-- The reference's chain at an entry. -/
theorem whole_at (x : FVec Ideal S100000x512 .f32) (b : FVec Ideal S1x512 .f32) (r : Fin 100000) (q : Fin 512) :
    whole x b (ix2 r q) = max (x (ix2 r q) + b (ix2 (0 : Fin 1) q)) (Ideal.ofBits .f32 0x00000000#32) := by
  unfold whole
  rw [maximumf_apply, addf_apply, Cert.LibRowBcast.row_spread_apply, Cert.LibRowBcast.scalar_spread_apply]
  rfl

/-- One entry of a row block against the whole array: if the loaded block's row p is row r of the array and the loaded
    bias is the bias array, the block's entry (p, q) is the reference chain's entry (r, q). -/
theorem entry_eq (x : FVec Ideal S100000x512 .f32) (b : FVec Ideal S1x512 .f32)
    (x0 : FVec Ideal S2000x512 .f32) (x1 : FVec Ideal S1x512 .f32) (r : Fin 100000) (p : Fin 2000) (q : Fin 512)
    (h0 : x0 (ix2 p q) = x (ix2 r q)) (h1 : x1 (ix2 (0 : Fin 1) q) = b (ix2 (0 : Fin 1) q)) :
    k1_pay1 (F := Ideal) x0 x1 (ix2 p q) = whole x b (ix2 r q) := by
  rw [body_at, whole_at, h0, h1]

/-- What point t writes back is row block t of the reference chain of the arrays the region found. -/
theorem flushed_eq (c : Dev nD) (t : Fin cfg1.N) :
    (dat1 V c).flushed 2 t = ((cfg1.win 2).blk t).view.read (Elt Ideal) (whole (V c main_v10) (V c main_v11)) := by
  show (cfg1.win 2).cut (grid1.coords t) ((dat1 V c).after 2 t) = _
  rw [after1_2]
  unfold out1_2
  rw [View.canon_unit_zero zero_offsets]
  simp only [View.ld_unit_zero (S := S2000x512) zero_offsets, View.ld_unit_zero (S := S1x512) zero_offsets]
  funext j
  obtain ⟨p, q, rfl⟩ : ∃ (p : Fin 2000) (q : Fin 512), j = ix2 p q := ⟨j 0, j 1, eq_ix2 j⟩
  obtain ⟨e00, e01, e10, e11, e20, e21⟩ := block_indices t
  have ht : t.val < 50 := lt_of_lt_of_eq t.isLt N_1
  have hr : t.val * 2000 + p.val < 100000 := by have := p.isLt; omega
  show k1_pay1 (F := Ideal) (iblk1 V c 0 t) (iblk1 V c 1 t) (ix2 p q)
    = whole (V c main_v10) (V c main_v11) (((cfg1.win 2).blk t).view.emb (ix2 p q))
  have hemb : ((cfg1.win 2).blk t).view.emb (ix2 p q) = ix2 ⟨t.val * 2000 + p.val, hr⟩ q := by
    funext a; apply Fin.ext
    match a with
    | ⟨0, _⟩ => show win1_2.index t (0 : Fin 2) * 2000 + 1 * p.val = t.val * 2000 + p.val; omega
    | ⟨1, _⟩ => show win1_2.index t (1 : Fin 2) * 512 + 1 * q.val = q.val; omega
  rw [hemb]
  refine entry_eq (V c main_v10) (V c main_v11) (iblk1 V c 0 t) (iblk1 V c 1 t) ⟨_, hr⟩ p q ?_ ?_
  · show V c main_v10 (((cfg1.win 0).blk t).view.emb (ix2 p q)) = V c main_v10 (ix2 ⟨_, hr⟩ q)
    refine congrArg (V c main_v10) ?_
    funext a; apply Fin.ext
    match a with
    | ⟨0, _⟩ => show win1_0.index t (0 : Fin 2) * 2000 + 1 * p.val = t.val * 2000 + p.val; omega
    | ⟨1, _⟩ => show win1_0.index t (1 : Fin 2) * 512 + 1 * q.val = q.val; omega
  · show V c main_v11 (((cfg1.win 1).blk t).view.emb (ix2 (0 : Fin 1) q)) = V c main_v11 (ix2 (0 : Fin 1) q)
    refine congrArg (V c main_v11) ?_
    funext a; apply Fin.ext
    match a with
    | ⟨0, _⟩ => show win1_1.index t (0 : Fin 2) * 1 + 1 * (0 : Fin 1).val = (0 : Fin 1).val; omega
    | ⟨1, _⟩ => show win1_1.index t (1 : Fin 2) * 512 + 1 * q.val = q.val; omega

/-- An index of the result array lies in point t's block iff its row is in row block t (the columns are whole). -/
theorem mem_block (t : Fin cfg1.N) (i : S100000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v12).slice (win1_2.rect t)).set ↔ _
  rw [View.set_slice_whole, Rect.mem_set_unit]
  exact Iff.rfl

/-- Every entry of the result lies in the row block of its row divided by 2000. -/
theorem covered (i : S100000x512.Idx) :
    ∃ t : Fin cfg1.N, (cfg1.win 2).flush t = true ∧ i ∈ ((cfg1.win 2).blk t).view.set := by
  have hi0 : (i 0).val < 100000 := (i 0).isLt
  have hi1 : (i 1).val < 512 := (i 1).isLt
  have hN : cfg1.N = 50 := N_1
  let t : Fin cfg1.N := ⟨(i 0).val / 2000, by rw [hN]; omega⟩
  obtain ⟨e00, e01, e10, e11, e20, e21⟩ := block_indices t
  have e20' : win1_2.index t (0 : Fin 2) = (i 0).val / 2000 := e20
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 512 ≤ (i 1).val ∧ (i 1).val < win1_2.index t (1 : Fin 2) * 512 + 512; omega

/-- The array the second region leaves: the reference's bias and rectifier of the arrays it found. -/
theorem result (c : Dev nD) :
    (dat1 V c).arrAt 2 cfg1.N = whole (V c main_v10) (V c main_v11) :=
  (dat1 V c).arrAt_eq_of_cover 2 (whole (V c main_v10) (V c main_v11)) (fun t _ => flushed_eq V c t) covered

end Cert.KernelIdeal.Relu1

end
-- ==== Proof.Relu3.lean ====
/-
  The second layer's bias and rectifier, read off the pipeline. Point t adds the bias row to each of rows
  2000·t … 2000·t + 1999 of the aggregated messages and takes the maximum with zero: the block it loads is exactly
  those rows, the bias block is the whole one-row array, and the body is pointwise. Entry by entry that is the
  reference's host chain on the whole arrays — the bias row spread over all rows, added, and the maximum with the zero
  array. The fifty row blocks tile the result.
-/
import proofs.«139547_j50208167690314_1_alg».proof.Proof.Gen.KernelIdeal.Frame
import proofs.«139547_j50208167690314_1_alg».proof.Proof.Gen.ReferenceIdeal
import proofs.«139547_j50208167690314_1_alg».proof.Proof.LibRowBcast
import Idealize.ShloMosaic.Lib.Pipeline.Value
import Idealize.ShloMosaic.Lib.ValueIdx
import Idealize.ShloMosaic.Lib.ValueLayout

set_option maxRecDepth 16384

noncomputable section

namespace Cert.KernelIdeal.Relu3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The reference's bias and rectifier on whole arrays: the bias row spread over the rows, added, then the maximum
    with the zero array. -/
def whole (x : FVec Ideal S100000x512 .f32) (b : FVec Ideal S1x512 .f32) : FVec Ideal S100000x512 .f32 :=
  maximumf (addf x (broadcastInDim Cert.ReferenceIdeal.S100000x512 ![0, 1] Cert.ReferenceIdeal.Facts₀.bcast_S1x512_S100000x512_0_1 b))
    (broadcastInDim Cert.ReferenceIdeal.S100000x512 ![] Cert.ReferenceIdeal.Facts₀.bcast_S_S100000x512 (constant (F := Ideal) Cert.ReferenceIdeal.S_ .f32 0x00000000#32))

theorem zero_offsets : (![0, 0] : Fin 2 → Nat) = fun _ => 0 := funext fun a => by fin_cases a <;> rfl

/-- Where the blocks sit: point t's input block and result block are row block t; the bias block is the whole row. -/
theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body at an entry of the block: the entry plus the bias at its column, against zero. -/
theorem body_at (x0 : FVec Ideal S2000x512 .f32) (x1 : FVec Ideal S1x512 .f32) (p : Fin 2000) (q : Fin 512) :
    k3_pay1 (F := Ideal) x0 x1 (ix2 p q) = max (x0 (ix2 p q) + x1 (ix2 (0 : Fin 1) q)) (Ideal.ofBits .f32 0x00000000#32) := by
  unfold k3_pay1
  rw [shapeCast_self, shapeCast_self, maximumf_apply, addf_apply, broadcastTo_1b_ab_apply]
  rfl

/-- The reference's chain at an entry. -/
theorem whole_at (x : FVec Ideal S100000x512 .f32) (b : FVec Ideal S1x512 .f32) (r : Fin 100000) (q : Fin 512) :
    whole x b (ix2 r q) = max (x (ix2 r q) + b (ix2 (0 : Fin 1) q)) (Ideal.ofBits .f32 0x00000000#32) := by
  unfold whole
  rw [maximumf_apply, addf_apply, Cert.LibRowBcast.row_spread_apply, Cert.LibRowBcast.scalar_spread_apply]
  rfl

/-- One entry of a row block against the whole array: if the loaded block's row p is row r of the array and the loaded
    bias is the bias array, the block's entry (p, q) is the reference chain's entry (r, q). -/
theorem entry_eq (x : FVec Ideal S100000x512 .f32) (b : FVec Ideal S1x512 .f32)
    (x0 : FVec Ideal S2000x512 .f32) (x1 : FVec Ideal S1x512 .f32) (r : Fin 100000) (p : Fin 2000) (q : Fin 512)
    (h0 : x0 (ix2 p q) = x (ix2 r q)) (h1 : x1 (ix2 (0 : Fin 1) q) = b (ix2 (0 : Fin 1) q)) :
    k3_pay1 (F := Ideal) x0 x1 (ix2 p q) = whole x b (ix2 r q) := by
  rw [body_at, whole_at, h0, h1]

/-- What point t writes back is row block t of the reference chain of the arrays the region found. -/
theorem flushed_eq (c : Dev nD) (t : Fin cfg3.N) :
    (dat3 V c).flushed 2 t = ((cfg3.win 2).blk t).view.read (Elt Ideal) (whole (V c main_v23) (V c main_v24)) := by
  show (cfg3.win 2).cut (grid3.coords t) ((dat3 V c).after 2 t) = _
  rw [after3_2]
  unfold out3_2
  rw [View.canon_unit_zero zero_offsets]
  simp only [View.ld_unit_zero (S := S2000x512) zero_offsets, View.ld_unit_zero (S := S1x512) zero_offsets]
  funext j
  obtain ⟨p, q, rfl⟩ : ∃ (p : Fin 2000) (q : Fin 512), j = ix2 p q := ⟨j 0, j 1, eq_ix2 j⟩
  obtain ⟨e00, e01, e10, e11, e20, e21⟩ := block_indices t
  have ht : t.val < 50 := lt_of_lt_of_eq t.isLt N_3
  have hr : t.val * 2000 + p.val < 100000 := by have := p.isLt; omega
  show k3_pay1 (F := Ideal) (iblk3 V c 0 t) (iblk3 V c 1 t) (ix2 p q)
    = whole (V c main_v23) (V c main_v24) (((cfg3.win 2).blk t).view.emb (ix2 p q))
  have hemb : ((cfg3.win 2).blk t).view.emb (ix2 p q) = ix2 ⟨t.val * 2000 + p.val, hr⟩ q := by
    funext a; apply Fin.ext
    match a with
    | ⟨0, _⟩ => show win3_2.index t (0 : Fin 2) * 2000 + 1 * p.val = t.val * 2000 + p.val; omega
    | ⟨1, _⟩ => show win3_2.index t (1 : Fin 2) * 512 + 1 * q.val = q.val; omega
  rw [hemb]
  refine entry_eq (V c main_v23) (V c main_v24) (iblk3 V c 0 t) (iblk3 V c 1 t) ⟨_, hr⟩ p q ?_ ?_
  · show V c main_v23 (((cfg3.win 0).blk t).view.emb (ix2 p q)) = V c main_v23 (ix2 ⟨_, hr⟩ q)
    refine congrArg (V c main_v23) ?_
    funext a; apply Fin.ext
    match a with
    | ⟨0, _⟩ => show win3_0.index t (0 : Fin 2) * 2000 + 1 * p.val = t.val * 2000 + p.val; omega
    | ⟨1, _⟩ => show win3_0.index t (1 : Fin 2) * 512 + 1 * q.val = q.val; omega
  · show V c main_v24 (((cfg3.win 1).blk t).view.emb (ix2 (0 : Fin 1) q)) = V c main_v24 (ix2 (0 : Fin 1) q)
    refine congrArg (V c main_v24) ?_
    funext a; apply Fin.ext
    match a with
    | ⟨0, _⟩ => show win3_1.index t (0 : Fin 2) * 1 + 1 * (0 : Fin 1).val = (0 : Fin 1).val; omega
    | ⟨1, _⟩ => show win3_1.index t (1 : Fin 2) * 512 + 1 * q.val = q.val; omega

/-- An index of the result array lies in point t's block iff its row is in row block t (the columns are whole). -/
theorem mem_block (t : Fin cfg3.N) (i : S100000x512.Idx) :
    i ∈ ((cfg3.win 2).blk t).view.set ↔ ∀ a : Fin 2, win3_2.index t a * S2000x512.size a ≤ (i a).val ∧ (i a).val < win3_2.index t a * S2000x512.size a + S2000x512.size a := by
  show i ∈ ((View.whole main_v25).slice (win3_2.rect t)).set ↔ _
  rw [View.set_slice_whole, Rect.mem_set_unit]
  exact Iff.rfl

/-- Every entry of the result lies in the row block of its row divided by 2000. -/
theorem covered (i : S100000x512.Idx) :
    ∃ t : Fin cfg3.N, (cfg3.win 2).flush t = true ∧ i ∈ ((cfg3.win 2).blk t).view.set := by
  have hi0 : (i 0).val < 100000 := (i 0).isLt
  have hi1 : (i 1).val < 512 := (i 1).isLt
  have hN : cfg3.N = 50 := N_3
  let t : Fin cfg3.N := ⟨(i 0).val / 2000, by rw [hN]; omega⟩
  obtain ⟨e00, e01, e10, e11, e20, e21⟩ := block_indices t
  have e20' : win3_2.index t (0 : Fin 2) = (i 0).val / 2000 := e20
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 512 ≤ (i 1).val ∧ (i 1).val < win3_2.index t (1 : Fin 2) * 512 + 512; omega

/-- The array the fourth region leaves: the reference's bias and rectifier of the arrays it found. -/
theorem result (c : Dev nD) :
    (dat3 V c).arrAt 2 cfg3.N = whole (V c main_v23) (V c main_v24) :=
  (dat3 V c).arrAt_eq_of_cover 2 (whole (V c main_v23) (V c main_v24)) (fun t _ => flushed_eq V c t) covered

end Cert.KernelIdeal.Relu3

end
-- ==== Proof.Head4.lean ====
/-
  The classifier head, read off the pipeline. The last region has one grid point and every window's block is its whole
  array, so the region leaves in the result array the body's value of the arrays it found. The body is three
  dense layers: a matrix product into a zero accumulator, a bias row added to every row, a maximum with zero
  (absent after the last layer); over the extended reals the changes of float format between the layers are the
  identity, the vector unit's product is the host's product (both are, entry by entry, the sum over the shared
  axis), and a bias row spread over the rows is the same array whichever broadcast spells it. So the region's
  result is the reference's chain of host operations applied to the same arrays.
-/
import proofs.«139547_j50208167690314_1_alg».proof.Proof.Gen.KernelIdeal.Frame
import proofs.«139547_j50208167690314_1_alg».proof.Proof.Gen.ReferenceIdeal
import proofs.«139547_j50208167690314_1_alg».proof.Proof.LibDot
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Head4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The reference's head on whole arrays: three host products, each followed by its bias row spread over the rows,
    the first two also by a maximum with zero. -/
def whole (x : FVec Ideal S4000x712 .f32) (lw1 : FVec Ideal S712x500 .f32) (lb1 : FVec Ideal S1x500 .f32)
    (lw2 : FVec Ideal S500x100 .f32) (lb2 : FVec Ideal S1x100 .f32) (cw : FVec Ideal S100x2 .f32) (cb : FVec Ideal S1x2 .f32) :
    FVec Ideal S4000x2 .f32 :=
  addf (Host.dotGeneral (F := Ideal) Cert.ReferenceIdeal.dot_S4000x100_S100x2_S4000x2_1_0_0_1_n_n none
      (maximumf (addf (Host.dotGeneral (F := Ideal) Cert.ReferenceIdeal.dot_S4000x500_S500x100_S4000x100_1_0_0_1_n_n none
          (maximumf (addf (Host.dotGeneral (F := Ideal) Cert.ReferenceIdeal.dot_S4000x712_S712x500_S4000x500_1_0_0_1_n_n none x lw1)
              (broadcastInDim Cert.ReferenceIdeal.S4000x500 ![0, 1] Cert.ReferenceIdeal.Facts₀.bcast_S1x500_S4000x500_0_1 lb1))
            (broadcastInDim Cert.ReferenceIdeal.S4000x500 ![] Cert.ReferenceIdeal.Facts₀.bcast_S_S4000x500 (constant (F := Ideal) Cert.ReferenceIdeal.S_ .f32 0x00000000#32))) lw2)
          (broadcastInDim Cert.ReferenceIdeal.S4000x100 ![0, 1] Cert.ReferenceIdeal.Facts₀.bcast_S1x100_S4000x100_0_1 lb2))
        (broadcastInDim Cert.ReferenceIdeal.S4000x100 ![] Cert.ReferenceIdeal.Facts₀.bcast_S_S4000x100 (constant (F := Ideal) Cert.ReferenceIdeal.S_ .f32 0x00000000#32))) cw)
    (broadcastInDim Cert.ReferenceIdeal.S4000x2 ![0, 1] Cert.ReferenceIdeal.Facts₀.bcast_S1x2_S4000x2_0_1 cb)

theorem zero_offsets : (![0, 0] : Fin 2 → Nat) = fun _ => 0 := funext fun a => by fin_cases a <;> rfl

/-- The vector unit's product of two arrays narrowed to the short float format, into a zero accumulator, is the
    host's product of the arrays themselves: over the extended reals the narrowing is the identity, and entry by
    entry both products are the sum over the shared axis. -/
theorem product_eq {R K C : Nat} (d d' : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (hl' : d'.lhsContracting = [1]) (hr' : d'.rhsContracting = [0]) (hln' : d'.lhsNonContracting = [0])
    (hrn' : d'.rhsNonContracting = [1]) (hlb' : d'.lhsBatch = []) (hrb' : d'.rhsBatch = [])
    (a : FVec Ideal ⟨2, ![R, K]⟩ .f32) (b : FVec Ideal ⟨2, ![K, C]⟩ .f32)
    (h1 : FTy.bits .bf16 < FTy.bits .f32) (h2 : FTy.bits .bf16 < FTy.bits .f32) :
    matmul (F := Ideal) d none (truncf .bf16 a h1) (truncf .bf16 b h2) (constant ⟨2, ![R, C]⟩ .f32 0x00000000#32)
      = Host.dotGeneral (F := Ideal) d' none a b := by
  funext i
  obtain ⟨p, q, rfl⟩ : ∃ (p : Fin R) (q : Fin C), i = ix2 p q := ⟨i 0, i 1, eq_ix2 i⟩
  refine (Cert.LibDot.matmul_zero_at d hl hr hln hrn hlb hrb none _ _ p q).trans ?_
  refine Eq.trans ?_ (Cert.LibDot.dotGeneral_at d' hl' hr' hln' hrn' hlb' hrb' none _ a b p q).symm
  rfl

/-- A bias row spread over the rows is the same array whichever broadcast spells it: at entry (p, q) both read
    the row's entry q. -/
theorem bias_eq {m n : Nat} {α : Type} (v : (⟨2, ![1, n]⟩ : Shape).Idx → α)
    (hc : (⟨2, ![1, n]⟩ : Shape).ShapeCasts ⟨2, ![1, n]⟩) (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ v hc) hb = broadcastInDim ⟨2, ![m, n]⟩ ![0, 1] hd v := by
  rw [shapeCast_self]
  funext i
  obtain ⟨p, q, rfl⟩ : ∃ (p : Fin m) (q : Fin n), i = ix2 p q := ⟨i 0, i 1, eq_ix2 i⟩
  rw [broadcastTo_1b_ab_apply]
  refine (broadcastInDim_apply ![0, 1] hd v (ix2 p q) (ix2 (0 : Fin 1) q) (fun ax => ?_)).symm
  match ax with
  | ⟨0, _⟩ => rfl
  | ⟨1, _⟩ =>
    show q.val = if n = 1 then 0 else q.val
    split
    · have := q.isLt; omega
    · rfl

/-- The zero array is the same array whether a scalar zero is spread or a rank-0 zero array is: every entry is
    the extended real the zero word encodes. -/
theorem zeros_eq {t : Shape} (hd : (⟨0, ![]⟩ : Shape).BroadcastsInDim t ![]) :
    broadcast t (Scalar.ofBits (F := Ideal) .f32 0x00000000#32)
      = broadcastInDim t ![] hd (constant (F := Ideal) ⟨0, ![]⟩ .f32 0x00000000#32) := by
  funext i
  rfl

/-- The body's value of seven arrays is the reference's head of them: layer by layer the products, the bias rows
    and the zero arrays are the same arrays. -/
theorem body_eq (x : FVec Ideal S4000x712 .f32) (lw1 : FVec Ideal S712x500 .f32) (lb1 : FVec Ideal S1x500 .f32)
    (lw2 : FVec Ideal S500x100 .f32) (lb2 : FVec Ideal S1x100 .f32) (cw : FVec Ideal S100x2 .f32) (cb : FVec Ideal S1x2 .f32) :
    k4_pay1 (F := Ideal) x lw1 lb1 lw2 lb2 cw cb = whole x lw1 lb1 lw2 lb2 cw cb := by
  unfold k4_pay1 whole
  dsimp only
  rw [shapeCast_self x]
  rw [product_eq dot_S4000x712_S712x500_S4000x500_1_0_0_1_n_n Cert.ReferenceIdeal.dot_S4000x712_S712x500_S4000x500_1_0_0_1_n_n
    rfl rfl rfl rfl rfl rfl rfl rfl rfl rfl rfl rfl x lw1]
  rw [bias_eq (m := 4000) lb1 shapeCasts_S1x500_S1x500 broadcasts_S1x500_S4000x500 Cert.ReferenceIdeal.Facts₀.bcast_S1x500_S4000x500_0_1]
  rw [zeros_eq (t := S4000x500) Cert.ReferenceIdeal.Facts₀.bcast_S_S4000x500]
  rw [product_eq dot_S4000x500_S500x100_S4000x100_1_0_0_1_n_n Cert.ReferenceIdeal.dot_S4000x500_S500x100_S4000x100_1_0_0_1_n_n
    rfl rfl rfl rfl rfl rfl rfl rfl rfl rfl rfl rfl _ lw2]
  rw [bias_eq (m := 4000) lb2 shapeCasts_S1x100_S1x100 broadcasts_S1x100_S4000x100 Cert.ReferenceIdeal.Facts₀.bcast_S1x100_S4000x100_0_1]
  rw [zeros_eq (t := S4000x100) Cert.ReferenceIdeal.Facts₀.bcast_S_S4000x100]
  rw [product_eq dot_S4000x100_S100x2_S4000x2_1_0_0_1_n_n Cert.ReferenceIdeal.dot_S4000x100_S100x2_S4000x2_1_0_0_1_n_n
    rfl rfl rfl rfl rfl rfl rfl rfl rfl rfl rfl rfl _ cw]
  rw [bias_eq (m := 4000) cb shapeCasts_S1x2_S1x2 broadcasts_S1x2_S4000x2 Cert.ReferenceIdeal.Facts₀.bcast_S1x2_S4000x2_0_1]

/-! ## Where the blocks sit

  The grid has one point, and at it every window's block index is zero on both axes. -/

theorem index0 : ∀ t : Fin cfg4.N, win4_0.index t (0 : Fin 2) = 0 ∧ win4_0.index t (1 : Fin 2) = 0 :=
  (by decide +kernel : ∀ t : Fin grid4.N, _)

theorem index1 : ∀ t : Fin cfg4.N, win4_1.index t (0 : Fin 2) = 0 ∧ win4_1.index t (1 : Fin 2) = 0 :=
  (by decide +kernel : ∀ t : Fin grid4.N, _)

theorem index2 : ∀ t : Fin cfg4.N, win4_2.index t (0 : Fin 2) = 0 ∧ win4_2.index t (1 : Fin 2) = 0 :=
  (by decide +kernel : ∀ t : Fin grid4.N, _)

theorem index3 : ∀ t : Fin cfg4.N, win4_3.index t (0 : Fin 2) = 0 ∧ win4_3.index t (1 : Fin 2) = 0 :=
  (by decide +kernel : ∀ t : Fin grid4.N, _)

theorem index4 : ∀ t : Fin cfg4.N, win4_4.index t (0 : Fin 2) = 0 ∧ win4_4.index t (1 : Fin 2) = 0 :=
  (by decide +kernel : ∀ t : Fin grid4.N, _)

theorem index5 : ∀ t : Fin cfg4.N, win4_5.index t (0 : Fin 2) = 0 ∧ win4_5.index t (1 : Fin 2) = 0 :=
  (by decide +kernel : ∀ t : Fin grid4.N, _)

theorem index6 : ∀ t : Fin cfg4.N, win4_6.index t (0 : Fin 2) = 0 ∧ win4_6.index t (1 : Fin 2) = 0 :=
  (by decide +kernel : ∀ t : Fin grid4.N, _)

theorem index7 : ∀ t : Fin cfg4.N, win4_7.index t (0 : Fin 2) = 0 ∧ win4_7.index t (1 : Fin 2) = 0 :=
  (by decide +kernel : ∀ t : Fin grid4.N, _)

/-- Window 0's block at the region's one point is the whole feature array: the block sits at the origin and has the array's extents. -/
theorem block0_eq (c : Dev nD) (t : Fin cfg4.N) : iblk4 V c 0 t = V c main_v38 := by
  funext y
  obtain ⟨p, q, rfl⟩ : ∃ (p : Fin 4000) (q : Fin 712), y = ix2 p q := ⟨y 0, y 1, eq_ix2 y⟩
  obtain ⟨e0, e1⟩ := index0 t
  show V c main_v38 (((cfg4.win 0).blk t).view.emb (ix2 p q)) = V c main_v38 (ix2 p q)
  refine congrArg (V c main_v38) ?_
  funext a; apply Fin.ext
  match a with
  | ⟨0, _⟩ => show win4_0.index t (0 : Fin 2) * 4000 + 1 * p.val = p.val; omega
  | ⟨1, _⟩ => show win4_0.index t (1 : Fin 2) * 712 + 1 * q.val = q.val; omega

/-- Window 1's block at the region's one point is the whole first weight matrix: the block sits at the origin and has the array's extents. -/
theorem block1_eq (c : Dev nD) (t : Fin cfg4.N) : iblk4 V c 1 t = V c main_arg9 := by
  funext y
  obtain ⟨p, q, rfl⟩ : ∃ (p : Fin 712) (q : Fin 500), y = ix2 p q := ⟨y 0, y 1, eq_ix2 y⟩
  obtain ⟨e0, e1⟩ := index1 t
  show V c main_arg9 (((cfg4.win 1).blk t).view.emb (ix2 p q)) = V c main_arg9 (ix2 p q)
  refine congrArg (V c main_arg9) ?_
  funext a; apply Fin.ext
  match a with
  | ⟨0, _⟩ => show win4_1.index t (0 : Fin 2) * 712 + 1 * p.val = p.val; omega
  | ⟨1, _⟩ => show win4_1.index t (1 : Fin 2) * 500 + 1 * q.val = q.val; omega

/-- Window 2's block at the region's one point is the whole first bias row: the block sits at the origin and has the array's extents. -/
theorem block2_eq (c : Dev nD) (t : Fin cfg4.N) : iblk4 V c 2 t = V c main_v39 := by
  funext y
  obtain ⟨p, q, rfl⟩ : ∃ (p : Fin 1) (q : Fin 500), y = ix2 p q := ⟨y 0, y 1, eq_ix2 y⟩
  obtain ⟨e0, e1⟩ := index2 t
  show V c main_v39 (((cfg4.win 2).blk t).view.emb (ix2 p q)) = V c main_v39 (ix2 p q)
  refine congrArg (V c main_v39) ?_
  funext a; apply Fin.ext
  match a with
  | ⟨0, _⟩ => show win4_2.index t (0 : Fin 2) * 1 + 1 * p.val = p.val; omega
  | ⟨1, _⟩ => show win4_2.index t (1 : Fin 2) * 500 + 1 * q.val = q.val; omega

/-- Window 3's block at the region's one point is the whole second weight matrix: the block sits at the origin and has the array's extents. -/
theorem block3_eq (c : Dev nD) (t : Fin cfg4.N) : iblk4 V c 3 t = V c main_arg11 := by
  funext y
  obtain ⟨p, q, rfl⟩ : ∃ (p : Fin 500) (q : Fin 100), y = ix2 p q := ⟨y 0, y 1, eq_ix2 y⟩
  obtain ⟨e0, e1⟩ := index3 t
  show V c main_arg11 (((cfg4.win 3).blk t).view.emb (ix2 p q)) = V c main_arg11 (ix2 p q)
  refine congrArg (V c main_arg11) ?_
  funext a; apply Fin.ext
  match a with
  | ⟨0, _⟩ => show win4_3.index t (0 : Fin 2) * 500 + 1 * p.val = p.val; omega
  | ⟨1, _⟩ => show win4_3.index t (1 : Fin 2) * 100 + 1 * q.val = q.val; omega

/-- Window 4's block at the region's one point is the whole second bias row: the block sits at the origin and has the array's extents. -/
theorem block4_eq (c : Dev nD) (t : Fin cfg4.N) : iblk4 V c 4 t = V c main_v40 := by
  funext y
  obtain ⟨p, q, rfl⟩ : ∃ (p : Fin 1) (q : Fin 100), y = ix2 p q := ⟨y 0, y 1, eq_ix2 y⟩
  obtain ⟨e0, e1⟩ := index4 t
  show V c main_v40 (((cfg4.win 4).blk t).view.emb (ix2 p q)) = V c main_v40 (ix2 p q)
  refine congrArg (V c main_v40) ?_
  funext a; apply Fin.ext
  match a with
  | ⟨0, _⟩ => show win4_4.index t (0 : Fin 2) * 1 + 1 * p.val = p.val; omega
  | ⟨1, _⟩ => show win4_4.index t (1 : Fin 2) * 100 + 1 * q.val = q.val; omega

/-- Window 5's block at the region's one point is the whole last weight matrix: the block sits at the origin and has the array's extents. -/
theorem block5_eq (c : Dev nD) (t : Fin cfg4.N) : iblk4 V c 5 t = V c main_arg13 := by
  funext y
  obtain ⟨p, q, rfl⟩ : ∃ (p : Fin 100) (q : Fin 2), y = ix2 p q := ⟨y 0, y 1, eq_ix2 y⟩
  obtain ⟨e0, e1⟩ := index5 t
  show V c main_arg13 (((cfg4.win 5).blk t).view.emb (ix2 p q)) = V c main_arg13 (ix2 p q)
  refine congrArg (V c main_arg13) ?_
  funext a; apply Fin.ext
  match a with
  | ⟨0, _⟩ => show win4_5.index t (0 : Fin 2) * 100 + 1 * p.val = p.val; omega
  | ⟨1, _⟩ => show win4_5.index t (1 : Fin 2) * 2 + 1 * q.val = q.val; omega

/-- Window 6's block at the region's one point is the whole last bias row: the block sits at the origin and has the array's extents. -/
theorem block6_eq (c : Dev nD) (t : Fin cfg4.N) : iblk4 V c 6 t = V c main_v41 := by
  funext y
  obtain ⟨p, q, rfl⟩ : ∃ (p : Fin 1) (q : Fin 2), y = ix2 p q := ⟨y 0, y 1, eq_ix2 y⟩
  obtain ⟨e0, e1⟩ := index6 t
  show V c main_v41 (((cfg4.win 6).blk t).view.emb (ix2 p q)) = V c main_v41 (ix2 p q)
  refine congrArg (V c main_v41) ?_
  funext a; apply Fin.ext
  match a with
  | ⟨0, _⟩ => show win4_6.index t (0 : Fin 2) * 1 + 1 * p.val = p.val; omega
  | ⟨1, _⟩ => show win4_6.index t (1 : Fin 2) * 2 + 1 * q.val = q.val; omega

/-- What the one point writes back is the reference's head of the arrays the region found, read through the result
    window's block (which is the whole result array). -/
theorem flushed_eq (c : Dev nD) (t : Fin cfg4.N) :
    (dat4 V c).flushed 7 t = ((cfg4.win 7).blk t).view.read (Elt Ideal)
      (whole (V c main_v38) (V c main_arg9) (V c main_v39) (V c main_arg11) (V c main_v40) (V c main_arg13) (V c main_v41)) := by
  show (cfg4.win 7).cut (grid4.coords t) ((dat4 V c).after 7 t) = _
  rw [after4_7]
  unfold out4_7
  rw [View.canon_unit_zero zero_offsets]
  simp only [View.ld_unit_zero (S := S4000x712) zero_offsets, View.ld_unit_zero (S := S712x500) zero_offsets,
    View.ld_unit_zero (S := S1x500) zero_offsets, View.ld_unit_zero (S := S500x100) zero_offsets,
    View.ld_unit_zero (S := S1x100) zero_offsets, View.ld_unit_zero (S := S100x2) zero_offsets,
    View.ld_unit_zero (S := S1x2) zero_offsets]
  funext j
  obtain ⟨p, q, rfl⟩ : ∃ (p : Fin 4000) (q : Fin 2), j = ix2 p q := ⟨j 0, j 1, eq_ix2 j⟩
  obtain ⟨e0, e1⟩ := index7 t
  show k4_pay1 (F := Ideal) (iblk4 V c 0 t) (iblk4 V c 1 t) (iblk4 V c 2 t) (iblk4 V c 3 t) (iblk4 V c 4 t) (iblk4 V c 5 t)
      (iblk4 V c 6 t) (ix2 p q)
    = whole (V c main_v38) (V c main_arg9) (V c main_v39) (V c main_arg11) (V c main_v40) (V c main_arg13) (V c main_v41)
      (((cfg4.win 7).blk t).view.emb (ix2 p q))
  have hemb : ((cfg4.win 7).blk t).view.emb (ix2 p q) = ix2 p q := by
    funext a; apply Fin.ext
    match a with
    | ⟨0, _⟩ => show win4_7.index t (0 : Fin 2) * 4000 + 1 * p.val = p.val; omega
    | ⟨1, _⟩ => show win4_7.index t (1 : Fin 2) * 2 + 1 * q.val = q.val; omega
  rw [hemb, block0_eq V c t, block1_eq V c t, block2_eq V c t, block3_eq V c t, block4_eq V c t, block5_eq V c t, block6_eq V c t]
  exact congrFun (body_eq _ _ _ _ _ _ _) (ix2 p q)

/-- An index of the result array lies in point t's block iff on each axis it lies within the block's extent from the
    block's offset. -/
theorem mem_block (t : Fin cfg4.N) (i : S4000x2.Idx) :
    i ∈ ((cfg4.win 7).blk t).view.set ↔ ∀ a : Fin 2, win4_7.index t a * S4000x2.size a ≤ (i a).val ∧ (i a).val < win4_7.index t a * S4000x2.size a + S4000x2.size a := by
  show i ∈ ((View.whole main_v42).slice (win4_7.rect t)).set ↔ _
  rw [View.set_slice_whole, Rect.mem_set_unit]
  exact Iff.rfl

/-- Every entry of the result lies in the one point's block, which is the whole array. -/
theorem covered (i : S4000x2.Idx) :
    ∃ t : Fin cfg4.N, (cfg4.win 7).flush t = true ∧ i ∈ ((cfg4.win 7).blk t).view.set := by
  have hi0 : (i 0).val < 4000 := (i 0).isLt
  have hi1 : (i 1).val < 2 := (i 1).isLt
  obtain ⟨e0, e1⟩ := index7 t4_0
  refine ⟨t4_0, flush4_7 t4_0, ?_⟩
  rw [mem_block]
  intro a
  match a with
  | ⟨0, _⟩ => show win4_7.index t4_0 (0 : Fin 2) * 4000 ≤ (i 0).val ∧ (i 0).val < win4_7.index t4_0 (0 : Fin 2) * 4000 + 4000; omega
  | ⟨1, _⟩ => show win4_7.index t4_0 (1 : Fin 2) * 2 ≤ (i 1).val ∧ (i 1).val < win4_7.index t4_0 (1 : Fin 2) * 2 + 2; omega

/-- The array the last region leaves: the reference's head of the arrays it found. -/
theorem result (c : Dev nD) :
    (dat4 V c).arrAt 7 cfg4.N
      = whole (V c main_v38) (V c main_arg9) (V c main_v39) (V c main_arg11) (V c main_v40) (V c main_arg13) (V c main_v41) := by
  exact (dat4 V c).arrAt_eq_of_cover 7
    (whole (V c main_v38) (V c main_arg9) (V c main_v39) (V c main_arg11) (V c main_v40) (V c main_arg13) (V c main_v41))
    (fun t _ => flushed_eq V c t) covered

end Cert.KernelIdeal.Head4

end
-- ==== Proof.LibKeep.lean ====
/-
  A buffer that no operation of a host stretch writes keeps its contents across the stretch.
-/
import Idealize.ShloMosaic.Lib.StableHlo.Run

namespace Cert.LibKeep

open Idealize.ShloMosaic

/-- Closes `after ops X (devRef b) = X (devRef b)` for a literal list `ops` (named by the identifier given) none of
    whose operations writes `b`: each operation writes one literal reference, and it differs from `b`. -/
macro "kept_host" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

end Cert.LibKeep
-- ==== Proof.LibCastBcast.lean ====
/-
  A rank-1 array recast as a one-column or a one-row matrix is the same array as the one
  `broadcast_in_dim` makes of it along that axis: both read, at every index, the vector's entry at the
  index's one non-unit coordinate.
-/
import Idealize.ShloMosaic.Lib.Pipeline.Value
import Idealize.ShloMosaic.Lib.ValueIdx

namespace Cert.LibCastBcast

open Idealize.ShloMosaic Idealize.ShloMosaic.ValueIdx

variable {α : Type}

/-- An `[a]` vector recast to the column `[a, 1]` is its `broadcast_in_dim` along axis 0. -/
theorem column_cast_eq_bcast {a : ℕ} (x : (⟨1, ![a]⟩ : Shape).Idx → α)
    (h : (⟨1, ![a]⟩ : Shape).ShapeCasts ⟨2, ![a, 1]⟩)
    (h' : (⟨1, ![a]⟩ : Shape).BroadcastsInDim (⟨2, ![a, 1]⟩ : Shape) ![0]) :
    shapeCast ⟨2, ![a, 1]⟩ x h = broadcastInDim (⟨2, ![a, 1]⟩ : Shape) ![0] h' x := by
  funext j
  obtain ⟨p, u, rfl⟩ : ∃ (p : Fin a) (u : Fin 1), j = ix2 p u := ⟨j 0, j 1, eq_ix2 j⟩
  have hu : u.val = 0 := by omega
  refine (shapeCast_apply x h _ (ix1 p) ?_).trans (broadcastInDim_apply _ h' x _ (ix1 p) fun ax => ?_).symm
  · rw [Shape.rowMajor_val_two, Shape.rowMajor_val_one]
    show p.val = p.val * 1 + u.val
    rw [hu, Nat.mul_one, Nat.add_zero]
  · match ax with
    | ⟨0, _⟩ =>
      show p.val = if a = 1 then 0 else p.val
      split
      · have := p.isLt; omega
      · rfl

/-- A `[b]` vector recast to the row `[1, b]` is its `broadcast_in_dim` along axis 1. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.Through.lean ====
/-
  The idealized kernel program's result as a function of its arguments. Its @main alternates host stretches and
  kernel regions; the contents of the buffers at each boundary are a fold from the launch memory. Walking that fold:
  the first region leaves the product of the features with the first weights; the host stretch gathers it along the
  edges' sources and adds into the destinations; the second region adds the bias row and rectifies; the third region
  multiplies by the second weights; a second aggregation, bias and rectifier follow; the last host stretch averages
  the nodes of each graph and joins the graph descriptors on; the last region is the classifier head. At every
  boundary the buffer a later item reads holds exactly what the reference's host program holds at the same stage —
  the reference's stage values, as functions of the arguments — because every kernel region leaves what the
  reference's operations compute (the per-region modules) and the host stretches ARE the reference's operations.
  An argument array is written by no item, so every boundary finds it as launched. A bias vector the kernel program
  recasts to a one-row matrix is the same one-row matrix the reference makes by a broadcast.
-/
import proofs.«139547_j50208167690314_1_alg».proof.Proof.Gen.KernelIdeal.Frame
import proofs.«139547_j50208167690314_1_alg».proof.Proof.Gen.ReferenceIdeal.Read
import proofs.«139547_j50208167690314_1_alg».proof.Proof.Product0
import proofs.«139547_j50208167690314_1_alg».proof.Proof.Product2
import proofs.«139547_j50208167690314_1_alg».proof.Proof.Relu1
import proofs.«139547_j50208167690314_1_alg».proof.Proof.Relu3
import proofs.«139547_j50208167690314_1_alg».proof.Proof.Head4
import proofs.«139547_j50208167690314_1_alg».proof.Proof.LibKeep
import proofs.«139547_j50208167690314_1_alg».proof.Proof.LibCastBcast
import Idealize.ShloMosaic.Lib.StableHlo.Run

set_option maxRecDepth 16384

noncomputable section

namespace Cert.KernelIdeal.Through

open Cert.KernelIdeal Cert.KernelIdeal.Gen Idealize.ShloMosaic Idealize.ShloMosaic.TcCoe
open Idealize.SL.Sem Idealize.ShloMosaic.StableHlo
open Cert.LibKeep

variable (m : (ℓ : Loc nD τ sig) → Buf (Elt Ideal) ℓ) (ρ : Dev nD → PrngReg) (c : Dev nD)

/-! ## An argument array at every boundary is the array as launched -/

/-- After the first region: a buffer that is none of its three arrays. -/
theorem keep1 (b : Ref sig .tc) (hb : ∀ w, Pipeline.arrRef spec0 w ≠ b) :
    W1 m ρ c (Proc.devRef .tc b) = m ((c.tc : Thread nD τ).loc b) :=
  W1_of_ne m ρ c b hb

/-! ## The first layer -/

/-- The first region leaves the reference's first product. -/
theorem v0_eq : W1 m ρ c (Proc.devRef .tc main_v0) = Cert.ReferenceIdeal.Read.val_main_v0 (F := Ideal) (m ((c.tc : Thread nD τ).loc main_arg0)) (m ((c.tc : Thread nD τ).loc main_arg5)) :=
  (W1_arr m ρ c 2).trans (Cert.KernelIdeal.Product0.result (V0 m ρ) c)

/-- The first host stretch leaves the reference's first aggregation. -/
theorem v10_eq : W2 m ρ c (Proc.devRef .tc main_v10) = Cert.ReferenceIdeal.Read.val_main_v10 (F := Ideal) (m ((c.tc : Thread nD τ).loc main_arg0)) (m ((c.tc : Thread nD τ).loc main_arg2)) (m ((c.tc : Thread nD τ).loc main_arg3)) (m ((c.tc : Thread nD τ).loc main_arg5)) := by
  show StableHlo.after hostOps1 (W1 m ρ c) (Proc.devRef .tc main_v10) = _
  after_results
  rw [v0_eq, keep1 m ρ c main_arg2 (by decide), keep1 m ρ c main_arg3 (by decide)]
  rfl

/-- The first bias vector recast to a row is the reference's one-row broadcast of it. -/
theorem v11_eq : W2 m ρ c (Proc.devRef .tc main_v11) = Cert.ReferenceIdeal.Read.val_main_v11 (F := Ideal) (m ((c.tc : Thread nD τ).loc main_arg6)) := by
  show StableHlo.after hostOps1 (W1 m ρ c) (Proc.devRef .tc main_v11) = _
  after_results
  rw [keep1 m ρ c main_arg6 (by decide)]
  exact Cert.LibCastBcast.row_cast_eq_bcast (b := 512) _ _ _

/-- After the first host stretch an argument array is still the array as launched. -/
theorem keep2 (b : Ref sig .tc) (hb : ∀ w, Pipeline.arrRef spec0 w ≠ b)
    (hk : StableHlo.after hostOps1 (W1 m ρ c) (Proc.devRef .tc b) = W1 m ρ c (Proc.devRef .tc b)) :
    W2 m ρ c (Proc.devRef .tc b) = m ((c.tc : Thread nD τ).loc b) :=
  hk.trans (keep1 m ρ c b hb)

/-- The second region leaves the reference's first activations. -/
theorem v12_eq : W3 m ρ c (Proc.devRef .tc main_v12) = Cert.ReferenceIdeal.Read.val_main_v14 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) := by
  refine (W3_arr m ρ c 2).trans ((Cert.KernelIdeal.Relu1.result (V2 m ρ) c).trans ?_)
  show Cert.KernelIdeal.Relu1.whole (W2 m ρ c (Proc.devRef .tc main_v10)) (W2 m ρ c (Proc.devRef .tc main_v11)) = _
  rw [v10_eq, v11_eq]
  rfl

/-- After the second region an argument array that is none of its arrays is still the array as launched. -/
theorem keep3 (b : Ref sig .tc) (h0 : ∀ w, Pipeline.arrRef spec0 w ≠ b) (h1 : ∀ w, Pipeline.arrRef spec1 w ≠ b)
    (hk1 : StableHlo.after hostOps1 (W1 m ρ c) (Proc.devRef .tc b) = W1 m ρ c (Proc.devRef .tc b)) :
    W3 m ρ c (Proc.devRef .tc b) = m ((c.tc : Thread nD τ).loc b) :=
  (W3_of_ne m ρ c b h1).trans (keep2 m ρ c b h0 hk1)

/-! ## The second layer -/

theorem arg7_at3 : W3 m ρ c (Proc.devRef .tc main_arg7) = m ((c.tc : Thread nD τ).loc main_arg7) :=
  keep3 m ρ c main_arg7 (by decide) (by decide) (by kept_host hostOps1)

/-- The third region leaves the reference's second product. -/
theorem v13_eq : W4 m ρ c (Proc.devRef .tc main_v13) = Cert.ReferenceIdeal.Read.val_main_v15 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) := by
  refine (W4_arr m ρ c 2).trans ((Cert.KernelIdeal.Product2.result (V3 m ρ) c).trans ?_)
  show Cert.KernelIdeal.Product2.whole (W3 m ρ c (Proc.devRef .tc main_v12)) (W3 m ρ c (Proc.devRef .tc main_arg7)) = _
  rw [v12_eq, arg7_at3]
  rfl

/-- After the third region. -/
theorem keep4 (b : Ref sig .tc) (h0 : ∀ w, Pipeline.arrRef spec0 w ≠ b) (h1 : ∀ w, Pipeline.arrRef spec1 w ≠ b)
    (h2 : ∀ w, Pipeline.arrRef spec2 w ≠ b)
    (hk1 : StableHlo.after hostOps1 (W1 m ρ c) (Proc.devRef .tc b) = W1 m ρ c (Proc.devRef .tc b)) :
    W4 m ρ c (Proc.devRef .tc b) = m ((c.tc : Thread nD τ).loc b) :=
  (W4_of_ne m ρ c b h2).trans (keep3 m ρ c b h0 h1 hk1)

theorem arg2_at4 : W4 m ρ c (Proc.devRef .tc main_arg2) = m ((c.tc : Thread nD τ).loc main_arg2) :=
  keep4 m ρ c main_arg2 (by decide) (by decide) (by decide) (by kept_host hostOps1)
theorem arg3_at4 : W4 m ρ c (Proc.devRef .tc main_arg3) = m ((c.tc : Thread nD τ).loc main_arg3) :=
  keep4 m ρ c main_arg3 (by decide) (by decide) (by decide) (by kept_host hostOps1)
theorem arg8_at4 : W4 m ρ c (Proc.devRef .tc main_arg8) = m ((c.tc : Thread nD τ).loc main_arg8) :=
  keep4 m ρ c main_arg8 (by decide) (by decide) (by decide) (by kept_host hostOps1)

/-- The second host stretch leaves the reference's second aggregation. -/
theorem v23_eq : W5 m ρ c (Proc.devRef .tc main_v23) = Cert.ReferenceIdeal.Read.val_main_v25 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) := by
  show StableHlo.after hostOps3 (W4 m ρ c) (Proc.devRef .tc main_v23) = _
  after_results
  rw [v13_eq, arg2_at4, arg3_at4]
  rfl

/-- The second bias vector recast to a row is the reference's one-row broadcast of it. -/
theorem v24_eq : W5 m ρ c (Proc.devRef .tc main_v24) = Cert.ReferenceIdeal.Read.val_main_v26 (F := Ideal) (m ((c.tc : Thread nD τ).loc main_arg8)) := by
  show StableHlo.after hostOps3 (W4 m ρ c) (Proc.devRef .tc main_v24) = _
  after_results
  rw [arg8_at4]
  exact Cert.LibCastBcast.row_cast_eq_bcast (b := 512) _ _ _

/-- The fourth region leaves the reference's second activations. -/
theorem v25_eq : W6 m ρ c (Proc.devRef .tc main_v25) = Cert.ReferenceIdeal.Read.val_main_v29 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) := by
  refine (W6_arr m ρ c 2).trans ((Cert.KernelIdeal.Relu3.result (V5 m ρ) c).trans ?_)
  show Cert.KernelIdeal.Relu3.whole (W5 m ρ c (Proc.devRef .tc main_v23)) (W5 m ρ c (Proc.devRef .tc main_v24)) = _
  rw [v23_eq, v24_eq]
  rfl

/-- After the fourth region. -/
theorem keep6 (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (hk1 : StableHlo.after hostOps1 (W1 m ρ c) (Proc.devRef .tc b) = W1 m ρ c (Proc.devRef .tc b))
    (hk3 : StableHlo.after hostOps3 (W4 m ρ c) (Proc.devRef .tc b) = W4 m ρ c (Proc.devRef .tc b)) :
    W6 m ρ c (Proc.devRef .tc b) = m ((c.tc : Thread nD τ).loc b) :=
  (W6_of_ne m ρ c b h3).trans (hk3.trans (keep4 m ρ c b h0 h1 h2 hk1))

/-! ## The graph means, the descriptors joined on, and the head's bias rows -/

theorem arg4_at6 : W6 m ρ c (Proc.devRef .tc main_arg4) = m ((c.tc : Thread nD τ).loc main_arg4) :=
  keep6 m ρ c main_arg4 (by decide) (by decide) (by decide) (by decide) (by kept_host hostOps1) (by kept_host hostOps3)
theorem arg1_at6 : W6 m ρ c (Proc.devRef .tc main_arg1) = m ((c.tc : Thread nD τ).loc main_arg1) :=
  keep6 m ρ c main_arg1 (by decide) (by decide) (by decide) (by decide) (by kept_host hostOps1) (by kept_host hostOps3)
theorem arg10_at6 : W6 m ρ c (Proc.devRef .tc main_arg10) = m ((c.tc : Thread nD τ).loc main_arg10) :=
  keep6 m ρ c main_arg10 (by decide) (by decide) (by decide) (by decide) (by kept_host hostOps1) (by kept_host hostOps3)
theorem arg12_at6 : W6 m ρ c (Proc.devRef .tc main_arg12) = m ((c.tc : Thread nD τ).loc main_arg12) :=
  keep6 m ρ c main_arg12 (by decide) (by decide) (by decide) (by decide) (by kept_host hostOps1) (by kept_host hostOps3)
theorem arg14_at6 : W6 m ρ c (Proc.devRef .tc main_arg14) = m ((c.tc : Thread nD τ).loc main_arg14) :=
  keep6 m ρ c main_arg14 (by decide) (by decide) (by decide) (by decide) (by kept_host hostOps1) (by kept_host hostOps3)

/-- The last host stretch leaves the reference's head input. -/
theorem v38_eq : W7 m ρ c (Proc.devRef .tc main_v38) = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps4 (W6 m ρ c) (Proc.devRef .tc main_v38) = _
  after_results
  rw [v25_eq, arg4_at6, arg1_at6]
  rfl

theorem v39_eq : W7 m ρ c (Proc.devRef .tc main_v39) = Cert.ReferenceIdeal.Read.val_main_v44 (F := Ideal) (m ((c.tc : Thread nD τ).loc main_arg10)) := by
  show StableHlo.after hostOps4 (W6 m ρ c) (Proc.devRef .tc main_v39) = _
  after_results
  rw [arg10_at6]
  exact Cert.LibCastBcast.row_cast_eq_bcast (b := 500) _ _ _

theorem v40_eq : W7 m ρ c (Proc.devRef .tc main_v40) = Cert.ReferenceIdeal.Read.val_main_v49 (F := Ideal) (m ((c.tc : Thread nD τ).loc main_arg12)) := by
  show StableHlo.after hostOps4 (W6 m ρ c) (Proc.devRef .tc main_v40) = _
  after_results
  rw [arg12_at6]
  exact Cert.LibCastBcast.row_cast_eq_bcast (b := 100) _ _ _

theorem v41_eq : W7 m ρ c (Proc.devRef .tc main_v41) = Cert.ReferenceIdeal.Read.val_main_v54 (F := Ideal) (m ((c.tc : Thread nD τ).loc main_arg14)) := by
  show StableHlo.after hostOps4 (W6 m ρ c) (Proc.devRef .tc main_v41) = _
  after_results
  rw [arg14_at6]
  exact Cert.LibCastBcast.row_cast_eq_bcast (b := 2) _ _ _

/-- Into the last region an argument array arrives as launched. -/
theorem keep7 (b : Ref sig .tc) (h0 : ∀ w, Pipeline.arrRef spec0 w ≠ b) (h1 : ∀ w, Pipeline.arrRef spec1 w ≠ b)
    (h2 : ∀ w, Pipeline.arrRef spec2 w ≠ b) (h3 : ∀ w, Pipeline.arrRef spec3 w ≠ b)
    (hk1 : StableHlo.after hostOps1 (W1 m ρ c) (Proc.devRef .tc b) = W1 m ρ c (Proc.devRef .tc b))
    (hk3 : StableHlo.after hostOps3 (W4 m ρ c) (Proc.devRef .tc b) = W4 m ρ c (Proc.devRef .tc b))
    (hk4 : StableHlo.after hostOps4 (W6 m ρ c) (Proc.devRef .tc b) = W6 m ρ c (Proc.devRef .tc b)) :
    W7 m ρ c (Proc.devRef .tc b) = m ((c.tc : Thread nD τ).loc b) :=
  hk4.trans (keep6 m ρ c b h0 h1 h2 h3 hk1 hk3)

theorem arg9_at7 : W7 m ρ c (Proc.devRef .tc main_arg9) = m ((c.tc : Thread nD τ).loc main_arg9) :=
  keep7 m ρ c main_arg9 (by decide) (by decide) (by decide) (by decide) (by kept_host hostOps1) (by kept_host hostOps3) (by kept_host hostOps4)
theorem arg11_at7 : W7 m ρ c (Proc.devRef .tc main_arg11) = m ((c.tc : Thread nD τ).loc main_arg11) :=
  keep7 m ρ c main_arg11 (by decide) (by decide) (by decide) (by decide) (by kept_host hostOps1) (by kept_host hostOps3) (by kept_host hostOps4)
theorem arg13_at7 : W7 m ρ c (Proc.devRef .tc main_arg13) = m ((c.tc : Thread nD τ).loc main_arg13) :=
  keep7 m ρ c main_arg13 (by decide) (by decide) (by decide) (by decide) (by kept_host hostOps1) (by kept_host hostOps3) (by kept_host hostOps4)

/-! ## The head -/

/-- The last region leaves the reference's result: the idealized kernel program's result buffer, at the last boundary,
    is the reference's last stage of the arguments as launched. -/
theorem v42_eq : W8 m ρ c (Proc.devRef .tc main_v42)
    = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W8_arr m ρ c 7).trans ((Cert.KernelIdeal.Head4.result (V7 m ρ) c).trans ?_)
  show Cert.KernelIdeal.Head4.whole (W7 m ρ c (Proc.devRef .tc main_v38)) (W7 m ρ c (Proc.devRef .tc main_arg9))
      (W7 m ρ c (Proc.devRef .tc main_v39)) (W7 m ρ c (Proc.devRef .tc main_arg11)) (W7 m ρ c (Proc.devRef .tc main_v40))
      (W7 m ρ c (Proc.devRef .tc main_arg13)) (W7 m ρ c (Proc.devRef .tc main_v41)) = _
  rw [v38_eq, v39_eq, v40_eq, v41_eq, arg9_at7, arg11_at7, arg13_at7]
  rfl

end Cert.KernelIdeal.Through

end
-- ==== Proof.lean ====
/-
  A two-layer graph network with a classifier head, as a pipelined program of five kernel regions among host
  operations, against the same network written with host operations only; equality of the results over the
  extended reals.

  Both programs compute, for node features X, edges (src, dst), node-to-graph map g, descriptors D:
      H₁ = max(A(X·W₁) + b₁, 0),  H₂ = max(A(H₁·W₂) + b₂, 0)         A = gather rows at src, add into rows dst
      P = (sum of H₂'s rows per graph) / max(count per graph, 1),  Z = [P | D]
      out = max(max(Z·L₁ + c₁, 0)·L₂ + c₂, 0)·C + c₃.
  The kernel program does the two big products, the two bias-and-rectifier steps and the whole head inside kernel
  regions, on row blocks of 2000 (the head on the whole arrays), narrowing operands to a shorter float format before
  each product; the gathers, the scatter-additions, the per-graph mean and the concatenation are the same host
  operations in both programs. Over the extended reals a change of float format is the identity, the vector unit's
  product into a zero accumulator and the host's product are entry by entry the same finite sum, a row block's
  result depends only on the block's rows, and a bias row spread over the rows is one array however it is spelt.
  So every kernel region leaves what the reference's operations compute (Product0, Relu1, Product2, Relu3, Head4),
  the buffers at every boundary of the kernel program hold the reference's stage values of the arguments (Through),
  and the two results are the same function of the arguments. No law of arithmetic beyond this identification is
  used, so the inputs' finiteness is not needed. The idealization rewrote nothing, so `preserves` has no conjunct.
  The three frames: the two kernel programs' are the generated ones; the reference has no kernel and its frame is
  its run with the result dropped.
-/
import proofs.«139547_j50208167690314_1_alg».proof.Defs
import proofs.«139547_j50208167690314_1_alg».proof.Proof.Gen.Kernel
import proofs.«139547_j50208167690314_1_alg».proof.Proof.Gen.Kernel.Frame
import proofs.«139547_j50208167690314_1_alg».proof.Proof.Gen.KernelIdeal
import proofs.«139547_j50208167690314_1_alg».proof.Proof.Gen.KernelIdeal.Frame
import proofs.«139547_j50208167690314_1_alg».proof.Proof.Gen.ReferenceIdeal
import proofs.«139547_j50208167690314_1_alg».proof.Proof.Gen.ReferenceIdeal.Run
import proofs.«139547_j50208167690314_1_alg».proof.Proof.Gen.ReferenceIdeal.Read
import proofs.«139547_j50208167690314_1_alg».proof.Proof.Gen.Pre_finite_inputs
import proofs.«139547_j50208167690314_1_alg».proof.Proof.KernelRun
import proofs.«139547_j50208167690314_1_alg».proof.Proof.Through
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel program's result buffer
    ends at the reference's last stage of ITS arguments, the reference's at the same stage of its own, and the arguments
    agree. -/
theorem algebraic : Cert.algebraic_KernelIdeal_ReferenceIdeal := by
  intro m ρ m' ρ' _ hagree
  refine ⟨fun c => Cert.KernelIdeal.Gen.W8 m ρ c (Proc.devRef .tc Cert.KernelIdeal.main_v42),
    Cert.KernelIdeal.GenRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v56_eq, h0, h1, h2, h3, h4, h5, h6, h7, h8, h9, h10, h11, h12, h13, h14]
  exact (Cert.KernelIdeal.Through.v42_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
